-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S100000x128 : Shape := ⟨2, ![100000, 128]⟩
abbrev S100000 : Shape := ⟨1, ![100000]⟩
abbrev S4096x200 : Shape := ⟨2, ![4096, 200]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S100000 : S_.BroadcastsInDim S100000 (![] : Fin 0 → Fin S100000.rank)
  reducesTo_S100000_S_d0 : S100000.ReducesTo [0] S_

variable [Facts]

def fn_part1 {F : FTy → Type} [FloatOps F] (main_v13 : IVec S_ 1) (main_v15 : IVec S100000 1) (main_c_5 : IVec S_ 1) : IVec S_ 1 :=
  let main_v16 : IVec S_ 1 := (fun x v => Host.reduce IntOp.andi x v reducesTo_S100000_S_d0 h_S_) main_v15 main_c_5
  let main_v17 : IVec S_ 1 := andi main_v13 main_v16
  main_v17

def fn {F : FTy → Type} [FloatOps F] (main_arg0 : FVec F S4096x128 .f32) (main_arg1 : FVec F S100000x128 .f32) (main_arg2 : FVec F S100000 .f32) (main_arg3 : IVec S100000 32) (main_arg4 : IVec S4096x200 32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S100000 .f32 := Host.absf main_arg2
  let main_cst_2 : FVec F S_ .f32 := constant S_ .f32 0x7F800000#32
  let main_v10 : FVec F S100000 .f32 := broadcastInDim S100000 ![] bcast_S_S100000 main_cst_2
  let main_v11 : IVec S100000 1 := cmpf .olt main_v9 main_v10
  let main_c_3 : IVec S_ 1 := constantI S_ 1 1#1
  let main_v12 : IVec S_ 1 := (fun x v => Host.reduce IntOp.andi x v reducesTo_S100000_S_d0 h_S_) main_v11 main_c_3
  let main_v13 : IVec S_ 1 := andi main_v8 main_v12
  let main_c_4 : IVec S_ 32 := constantI S_ 32 0#32
  let main_v14 : IVec S100000 32 := broadcastInDim S100000 ![] bcast_S_S100000 main_c_4
  let main_v15 : IVec S100000 1 := cmpi .sge main_arg3 main_v14
  let main_c_5 : IVec S_ 1 := constantI S_ 1 1#1
  fn_part1 (F := F) main_v13 main_v15 main_c_5
-- ==== Kernel.lean ====
abbrev S4096x128 : Shape := ⟨2, ![4096, 128]⟩
abbrev S100000x128 : Shape := ⟨2, ![100000, 128]⟩
abbrev S100000 : Shape := ⟨1, ![100000]⟩
abbrev S4096x200 : Shape := ⟨2, ![4096, 200]⟩
abbrev S_ : Shape := ⟨0, ![]⟩
abbrev S4096x200x1 : Shape := ⟨3, ![4096, 200, 1]⟩
abbrev S4096x200x128 : Shape := ⟨3, ![4096, 200, 128]⟩
abbrev S4096x1000 : Shape := ⟨2, ![4096, 1000]⟩
abbrev S32x128 : Shape := ⟨2, ![32, 128]⟩
abbrev S32x200x128 : Shape := ⟨3, ![32, 200, 128]⟩
abbrev S32x200 : Shape := ⟨2, ![32, 200]⟩
abbrev S32x1000 : Shape := ⟨2, ![32, 1000]⟩
abbrev S32x40x128 : Shape := ⟨3, ![32, 40, 128]⟩
abbrev S32x40 : Shape := ⟨2, ![32, 40]⟩
abbrev S32x1x128 : Shape := ⟨3, ![32, 1, 128]⟩
abbrev S32x40x1000 : Shape := ⟨3, ![32, 40, 1000]⟩
abbrev S32x40x1 : Shape := ⟨3, ![32, 40, 1]⟩
abbrev S32 : Shape := ⟨1, ![32]⟩
abbrev S32x1 : Shape := ⟨2, ![32, 1]⟩

abbrev nBuf : Space → Nat
  | .hbm => 33
  | .vmem => 10
  | .smem => 0
  | _ => 0

abbrev bufTy : (tb : Table) → Fin (tcTables nBuf tb) → BufTy
  | .hbm, ⟨0, _⟩ => ⟨S4096x128, .f32⟩
  | .hbm, ⟨1, _⟩ => ⟨S100000x128, .f32⟩
  | .hbm, ⟨2, _⟩ => ⟨S100000, .f32⟩
  | .hbm, ⟨3, _⟩ => ⟨S100000, .i32⟩
  | .hbm, ⟨4, _⟩ => ⟨S4096x200, .i32⟩
  | .hbm, ⟨5, _⟩ => ⟨S_, .i32⟩
  | .hbm, ⟨6, _⟩ => ⟨S4096x200, .i32⟩
  | .hbm, ⟨7, _⟩ => ⟨S4096x200, .i1⟩
  | .hbm, ⟨8, _⟩ => ⟨S_, .i32⟩
  | .hbm, ⟨9, _⟩ => ⟨S4096x200, .i32⟩
  | .hbm, ⟨10, _⟩ => ⟨S4096x200, .i32⟩
  | .hbm, ⟨11, _⟩ => ⟨S4096x200, .i32⟩
  | .hbm, ⟨12, _⟩ => ⟨S4096x200x1, .i32⟩
  | .hbm, ⟨13, _⟩ => ⟨S4096x200x128, .f32⟩
  | .hbm, ⟨14, _⟩ => ⟨S_, .i32⟩
  | .hbm, ⟨15, _⟩ => ⟨S4096x200, .i32⟩
  | .hbm, ⟨16, _⟩ => ⟨S4096x200, .i1⟩
  | .hbm, ⟨17, _⟩ => ⟨S_, .i32⟩
  | .hbm, ⟨18, _⟩ => ⟨S4096x200, .i32⟩
  | .hbm, ⟨19, _⟩ => ⟨S4096x200, .i32⟩
  | .hbm, ⟨20, _⟩ => ⟨S4096x200, .i32⟩
  | .hbm, ⟨21, _⟩ => ⟨S4096x200x1, .i32⟩
  | .hbm, ⟨22, _⟩ => ⟨S4096x200, .f32⟩
  | .hbm, ⟨23, _⟩ => ⟨S_, .i32⟩
  | .hbm, ⟨24, _⟩ => ⟨S4096x200, .i32⟩
  | .hbm, ⟨25, _⟩ => ⟨S4096x200, .i1⟩
  | .hbm, ⟨26, _⟩ => ⟨S_, .i32⟩
  | .hbm, ⟨27, _⟩ => ⟨S4096x200, .i32⟩
  | .hbm, ⟨28, _⟩ => ⟨S4096x200, .i32⟩
  | .hbm, ⟨29, _⟩ => ⟨S4096x200, .i32⟩
  | .hbm, ⟨30, _⟩ => ⟨S4096x200x1, .i32⟩
  | .hbm, ⟨31, _⟩ => ⟨S4096x200, .i32⟩
  | .hbm, ⟨32, _⟩ => ⟨S4096x1000, .f32⟩
  | .local _ .vmem, ⟨0, _⟩ => ⟨S32x128, .f32⟩
  | .local _ .vmem, ⟨1, _⟩ => ⟨S32x128, .f32⟩
  | .local _ .vmem, ⟨2, _⟩ => ⟨S32x200x128, .f32⟩
  | .local _ .vmem, ⟨3, _⟩ => ⟨S32x200x128, .f32⟩
  | .local _ .vmem, ⟨4, _⟩ => ⟨S32x200, .f32⟩
  | .local _ .vmem, ⟨5, _⟩ => ⟨S32x200, .f32⟩
  | .local _ .vmem, ⟨6, _⟩ => ⟨S32x200, .i32⟩
  | .local _ .vmem, ⟨7, _⟩ => ⟨S32x200, .i32⟩
  | .local _ .vmem, ⟨8, _⟩ => ⟨S32x1000, .f32⟩
  | .local _ .vmem, ⟨9, _⟩ => ⟨S32x1000, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_3 : Ref sig .tc := ⟨.hbm, 23, rfl⟩
abbrev main_v14 : Ref sig .tc := ⟨.hbm, 24, rfl⟩
abbrev main_v15 : Ref sig .tc := ⟨.hbm, 25, rfl⟩
abbrev main_c_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x200x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x200 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x200 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x1000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S4096x200 : S_.BroadcastsInDim S4096x200 (![] : Fin 0 → Fin S4096x200.rank)
  bcast_S4096x200_S4096x200x1_0_1 : S4096x200.BroadcastsInDim S4096x200x1 (![0, 1] : Fin 2 → Fin S4096x200x1.rank)
  inb_S32x128_S32x128_0_0 : ∀ a, (![0, 0] : Fin 2 → Nat) a + S32x128.size a ≤ S32x128.size a
  h_S32x128 : 0 < S32x128.numel
  inb_S32x200x128_S32x40x128_0_0_0 : ∀ a, (![0, 0, 0] : Fin 3 → Nat) a + S32x40x128.size a ≤ S32x200x128.size a
  h_S32x40x128 : 0 < S32x40x128.numel
  shapeCasts_S32x40x128_S32x40x128 : S32x40x128.ShapeCasts S32x40x128
  inb_S32x200_S32x40_0_0 : ∀ a, (![0, 0] : Fin 2 → Nat) a + S32x40.size a ≤ S32x200.size a
  h_S32x40 : 0 < S32x40.numel
  shapeCasts_S32x40_S32x40 : S32x40.ShapeCasts S32x40
  shapeCasts_S32x128_S32x1x128 : S32x128.ShapeCasts S32x1x128
  broadcasts_S32x1x128_S32x40x128 : S32x1x128.Broadcasts S32x40x128
  reduces_S32x40x128_S32x40 : S32x40x128.Reduces [2] S32x40
  iota_S32x40x1000_d2_w32 : S32x40x1000.Iotas .tc 32 [2]
  shapeCasts_S32x40_S32x40x1 : S32x40.ShapeCasts S32x40x1
  broadcasts_S32x40x1_S32x40x1000 : S32x40x1.Broadcasts S32x40x1000
  shapeCasts_S32x40x1_S32x40x1 : S32x40x1.ShapeCasts S32x40x1
  reduces_S32x40x1000_S32x1000 : S32x40x1000.Reduces [1] S32x1000
  inb_S32x200x128_S32x40x128_0_40_0 : ∀ a, (![0, 40, 0] : Fin 3 → Nat) a + S32x40x128.size a ≤ S32x200x128.size a
  inb_S32x200_S32x40_0_40 : ∀ a, (![0, 40] : Fin 2 → Nat) a + S32x40.size a ≤ S32x200.size a
  inb_S32x200x128_S32x40x128_0_80_0 : ∀ a, (![0, 80, 0] : Fin 3 → Nat) a + S32x40x128.size a ≤ S32x200x128.size a
  inb_S32x200_S32x40_0_80 : ∀ a, (![0, 80] : Fin 2 → Nat) a + S32x40.size a ≤ S32x200.size a
  inb_S32x200x128_S32x40x128_0_120_0 : ∀ a, (![0, 120, 0] : Fin 3 → Nat) a + S32x40x128.size a ≤ S32x200x128.size a
  inb_S32x200_S32x40_0_120 : ∀ a, (![0, 120] : Fin 2 → Nat) a + S32x40.size a ≤ S32x200.size a
  inb_S32x200x128_S32x40x128_0_160_0 : ∀ a, (![0, 160, 0] : Fin 3 → Nat) a + S32x40x128.size a ≤ S32x200x128.size a
  inb_S32x200_S32x40_0_160 : ∀ a, (![0, 160] : Fin 2 → Nat) a + S32x40.size a ≤ S32x200.size a
  reduces_S32x1000_S32 : S32x1000.Reduces [1] S32
  shapeCasts_S32_S32x1 : S32.ShapeCasts S32x1
  broadcasts_S32x1_S32x1000 : S32x1.Broadcasts S32x1000
  inb_S32x1000_S32x1000_0_0 : ∀ a, (![0, 0] : Fin 2 → Nat) a + S32x1000.size a ≤ S32x1000.size a
  h_S32x1000 : 0 < S32x1000.numel
  gather_S100000x128_S4096x200x1_S4096x200x128_2_0_n_n_0_2_1128_wf : GatherDims.WF S100000x128 S4096x200x1 S4096x200x128 [2] [0] [] [0] [] 2 ![1, 128]
  gather_S100000_S4096x200x1_S4096x200_n_0_n_n_0_2_1_wf : GatherDims.WF S100000 S4096x200x1 S4096x200 [] [0] [] [0] [] 2 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x128.size a ≤ S4096x128.size a
  hwx0_0 : ∀ i : grid0.Coords, EltTy.bits .f32 = 32 ∨ (Rect.block (s := S4096x128) S32x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x200x128.size a ≤ S4096x200x128.size a
  hwx0_1 : ∀ i : grid0.Coords, EltTy.bits .f32 = 32 ∨ (Rect.block (s := S4096x200x128) S32x200x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x200.size a ≤ S4096x200.size a
  hwx0_2 : ∀ i : grid0.Coords, EltTy.bits .f32 = 32 ∨ (Rect.block (s := S4096x200) S32x200.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x200.size a ≤ S4096x200.size a
  hwx0_3 : ∀ i : grid0.Coords, EltTy.bits .i32 = 32 ∨ (Rect.block (s := S4096x200) S32x200.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x1000.size a ≤ S4096x1000.size a
  hwx0_4 : ∀ i : grid0.Coords, EltTy.bits .f32 = 32 ∨ (Rect.block (s := S4096x1000) S32x1000.size (cc0_transform_4 i) (hinb0_4 i)).WholeWords (EltTy.packing .f32)

variable [Facts₀]

def gather_S100000x128_S4096x200x1_S4096x200x128_2_0_n_n_0_2_1128 : GatherDims S100000x128 S4096x200x1 S4096x200x128 where
  offsetDims := [2]
  collapsedSliceDims := [0]
  operandBatchingDims := []
  startIndicesBatchingDims := []
  startIndexMap := [0]
  indexVectorDim := 2
  sliceSizes := ![1, 128]
  wf := gather_S100000x128_S4096x200x1_S4096x200x128_2_0_n_n_0_2_1128_wf
def gather_S100000_S4096x200x1_S4096x200_n_0_n_n_0_2_1 : GatherDims S100000 S4096x200x1 S4096x200 where
  offsetDims := []
  collapsedSliceDims := [0]
  operandBatchingDims := []
  startIndicesBatchingDims := []
  startIndexMap := [0]
  indexVectorDim := 2
  sliceSizes := ![1]
  wf := gather_S100000_S4096x200x1_S4096x200_n_0_n_n_0_2_1_wf

abbrev win0_0 : Pipeline.Window sig grid0 :=
  Pipeline.Window.ofSpec (Memref.whole main_arg0) S32x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S32x200x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S32x200.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v20) S32x200.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v21) S32x1000.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x128 : Shape := ⟨2, ![4096, 128]⟩
abbrev S100000x128 : Shape := ⟨2, ![100000, 128]⟩
abbrev S100000 : Shape := ⟨1, ![100000]⟩
abbrev S4096x200 : Shape := ⟨2, ![4096, 200]⟩
abbrev S_ : Shape := ⟨0, ![]⟩
abbrev S4096x200x1 : Shape := ⟨3, ![4096, 200, 1]⟩
abbrev S4096x200x128 : Shape := ⟨3, ![4096, 200, 128]⟩
abbrev S4096x1x128 : Shape := ⟨3, ![4096, 1, 128]⟩
abbrev S4096 : Shape := ⟨1, ![4096]⟩
abbrev S4096x1 : Shape := ⟨2, ![4096, 1]⟩
abbrev S4096x1000 : Shape := ⟨2, ![4096, 1000]⟩
abbrev S4096x200x2 : Shape := ⟨3, ![4096, 200, 2]⟩

abbrev nBuf : Space → Nat
  | .hbm => 80
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S100000x128, .f32⟩
  | .hbm, ⟨2, _⟩ => ⟨S100000, .f32⟩
  | .hbm, ⟨3, _⟩ => ⟨S100000, .i32⟩
  | .hbm, ⟨4, _⟩ => ⟨S4096x200, .i32⟩
  | .hbm, ⟨5, _⟩ => ⟨S_, .i32⟩
  | .hbm, ⟨6, _⟩ => ⟨S4096x200, .i32⟩
  | .hbm, ⟨7, _⟩ => ⟨S4096x200, .i1⟩
  | .hbm, ⟨8, _⟩ => ⟨S_, .i32⟩
  | .hbm, ⟨9, _⟩ => ⟨S4096x200, .i32⟩
  | .hbm, ⟨10, _⟩ => ⟨S4096x200, .i32⟩
  | .hbm, ⟨11, _⟩ => ⟨S4096x200, .i32⟩
  | .hbm, ⟨12, _⟩ => ⟨S4096x200x1, .i32⟩
  | .hbm, ⟨13, _⟩ => ⟨S4096x200x128, .f32⟩
  | .hbm, ⟨14, _⟩ => ⟨S4096x1x128, .f32⟩
  | .hbm, ⟨15, _⟩ => ⟨S4096x200x128, .f32⟩
  | .hbm, ⟨16, _⟩ => ⟨S4096x200x128, .f32⟩
  | .hbm, ⟨17, _⟩ => ⟨S4096x200x128, .f32⟩
  | .hbm, ⟨18, _⟩ => ⟨S_, .f32⟩
  | .hbm, ⟨19, _⟩ => ⟨S4096x200, .f32⟩
  | .hbm, ⟨20, _⟩ => ⟨S4096x200, .f32⟩
  | .hbm, ⟨21, _⟩ => ⟨S_, .f32⟩
  | .hbm, ⟨22, _⟩ => ⟨S4096x200, .f32⟩
  | .hbm, ⟨23, _⟩ => ⟨S4096x200, .f32⟩
  | .hbm, ⟨24, _⟩ => ⟨S4096x200, .f32⟩
  | .hbm, ⟨25, _⟩ => ⟨S100000, .f32⟩
  | .hbm, ⟨26, _⟩ => ⟨S_, .i32⟩
  | .hbm, ⟨27, _⟩ => ⟨S4096x200, .i32⟩
  | .hbm, ⟨28, _⟩ => ⟨S4096x200, .i1⟩
  | .hbm, ⟨29, _⟩ => ⟨S_, .i32⟩
  | .hbm, ⟨30, _⟩ => ⟨S4096x200, .i32⟩
  | .hbm, ⟨31, _⟩ => ⟨S4096x200, .i32⟩
  | .hbm, ⟨32, _⟩ => ⟨S4096x200, .i32⟩
  | .hbm, ⟨33, _⟩ => ⟨S4096x200x1, .i32⟩
  | .hbm, ⟨34, _⟩ => ⟨S4096x200, .f32⟩
  | .hbm, ⟨35, _⟩ => ⟨S4096x200, .f32⟩
  | .hbm, ⟨36, _⟩ => ⟨S_, .i32⟩
  | .hbm, ⟨37, _⟩ => ⟨S4096x200, .i32⟩
  | .hbm, ⟨38, _⟩ => ⟨S4096x200, .i1⟩
  | .hbm, ⟨39, _⟩ => ⟨S_, .i32⟩
  | .hbm, ⟨40, _⟩ => ⟨S4096x200, .i32⟩
  | .hbm, ⟨41, _⟩ => ⟨S4096x200, .i32⟩
  | .hbm, ⟨42, _⟩ => ⟨S4096x200, .i32⟩
  | .hbm, ⟨43, _⟩ => ⟨S4096x200x1, .i32⟩
  | .hbm, ⟨44, _⟩ => ⟨S4096x200, .i32⟩
  | .hbm, ⟨45, _⟩ => ⟨S4096, .i32⟩
  | .hbm, ⟨46, _⟩ => ⟨S4096x1, .i32⟩
  | .hbm, ⟨47, _⟩ => ⟨S_, .f32⟩
  | .hbm, ⟨48, _⟩ => ⟨S4096x1000, .f32⟩
  | .hbm, ⟨49, _⟩ => ⟨S_, .i32⟩
  | .hbm, ⟨50, _⟩ => ⟨S4096x1, .i32⟩
  | .hbm, ⟨51, _⟩ => ⟨S4096x1, .i1⟩
  | .hbm, ⟨52, _⟩ => ⟨S_, .i32⟩
  | .hbm, ⟨53, _⟩ => ⟨S4096x1, .i32⟩
  | .hbm, ⟨54, _⟩ => ⟨S4096x1, .i32⟩
  | .hbm, ⟨55, _⟩ => ⟨S4096x1, .i32⟩
  | .hbm, ⟨56, _⟩ => ⟨S_, .i32⟩
  | .hbm, ⟨57, _⟩ => ⟨S4096x200, .i32⟩
  | .hbm, ⟨58, _⟩ => ⟨S4096x200, .i1⟩
  | .hbm, ⟨59, _⟩ => ⟨S_, .i32⟩
  | .hbm, ⟨60, _⟩ => ⟨S4096x200, .i32⟩
  | .hbm, ⟨61, _⟩ => ⟨S4096x200, .i32⟩
  | .hbm, ⟨62, _⟩ => ⟨S4096x200, .i32⟩
  | .hbm, ⟨63, _⟩ => ⟨S4096x200, .i32⟩
  | .hbm, ⟨64, _⟩ => ⟨S4096x200x1, .i32⟩
  | .hbm, ⟨65, _⟩ => ⟨S4096x200x1, .i32⟩
  | .hbm, ⟨66, _⟩ => ⟨S4096x200x2, .i32⟩
  | .hbm, ⟨67, _⟩ => ⟨S4096x1000, .f32⟩
  | .hbm, ⟨68, _⟩ => ⟨S_, .f32⟩
  | .hbm, ⟨69, _⟩ => ⟨S4096x1000, .f32⟩
  | .hbm, ⟨70, _⟩ => ⟨S4096x1000, .i1⟩
  | .hbm, ⟨71, _⟩ => ⟨S_, .f32⟩
  | .hbm, ⟨72, _⟩ => ⟨S4096x1000, .f32⟩
  | .hbm, ⟨73, _⟩ => ⟨S4096x1000, .f32⟩
  | .hbm, ⟨74, _⟩ => ⟨S_, .f32⟩
  | .hbm, ⟨75, _⟩ => ⟨S4096, .f32⟩
  | .hbm, ⟨76, _⟩ => ⟨S4096x1, .f32⟩
  | .hbm, ⟨77, _⟩ => ⟨S4096x1000, .f32⟩
  | .hbm, ⟨78, _⟩ => ⟨S4096x1000, .f32⟩
  | .hbm, ⟨79, _⟩ => ⟨S4096x1000, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_2 : Ref sig .tc := ⟨.hbm, 26, rfl⟩
abbrev main_v17 : Ref sig .tc := ⟨.hbm, 27, rfl⟩
abbrev main_v18 : Ref sig .tc := ⟨.hbm, 28, rfl⟩
abbrev main_c_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c_4 : Ref sig .tc := ⟨.hbm, 36, rfl⟩
abbrev main_v25 : Ref sig .tc := ⟨.hbm, 37, rfl⟩
abbrev main_v26 : Ref sig .tc := ⟨.hbm, 38, rfl⟩
abbrev main_c_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_c_7 : Ref sig .tc := ⟨.hbm, 49, rfl⟩
abbrev main_v35 : Ref sig .tc := ⟨.hbm, 50, rfl⟩
abbrev main_v36 : Ref sig .tc := ⟨.hbm, 51, rfl⟩
abbrev main_c_8 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_c_9 : Ref sig .tc := ⟨.hbm, 56, rfl⟩
abbrev main_v40 : Ref sig .tc := ⟨.hbm, 57, rfl⟩
abbrev main_v41 : Ref sig .tc := ⟨.hbm, 58, rfl⟩
abbrev main_c_10 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_11 : Ref sig .tc := ⟨.hbm, 68, rfl⟩
abbrev main_v50 : Ref sig .tc := ⟨.hbm, 69, rfl⟩
abbrev main_v51 : Ref sig .tc := ⟨.hbm, 70, rfl⟩
abbrev main_cst_12 : Ref sig .tc := ⟨.hbm, 71, rfl⟩
abbrev main_call0_v0 : Ref sig .tc := ⟨.hbm, 72, rfl⟩
abbrev main_v52 : Ref sig .tc := ⟨.hbm, 73, rfl⟩
abbrev main_cst_13 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩

abbrev nD : Nat := 1
abbrev τ : Topo := Topo.v7x

variable {F : FTy → Type} [FloatOps F]

class Facts₀ : Prop where
  bcast_S_S4096x200 : S_.BroadcastsInDim S4096x200 (![] : Fin 0 → Fin S4096x200.rank)
  bcast_S4096x200_S4096x200x1_0_1 : S4096x200.BroadcastsInDim S4096x200x1 (![0, 1] : Fin 2 → Fin S4096x200x1.rank)
  bcast_S4096x128_S4096x1x128_0_2 : S4096x128.BroadcastsInDim S4096x1x128 (![0, 2] : Fin 2 → Fin S4096x1x128.rank)
  bcast_S4096x1x128_S4096x200x128_0_1_2 : S4096x1x128.BroadcastsInDim S4096x200x128 (![0, 1, 2] : Fin 3 → Fin S4096x200x128.rank)
  reducesTo_S4096x200x128_S4096x200_d2 : S4096x200x128.ReducesTo [2] S4096x200
  h_S_ : 0 < S_.numel
  bcast_S4096_S4096x1_0 : S4096.BroadcastsInDim S4096x1 (![0] : Fin 1 → Fin S4096x1.rank)
  bcast_S_S4096x1000 : S_.BroadcastsInDim S4096x1000 (![] : Fin 0 → Fin S4096x1000.rank)
  bcast_S_S4096x1 : S_.BroadcastsInDim S4096x1 (![] : Fin 0 → Fin S4096x1.rank)
  bcast_S4096x1_S4096x200_0_1 : S4096x1.BroadcastsInDim S4096x200 (![0, 1] : Fin 2 → Fin S4096x200.rank)
  concatenates_S4096x200x1_S4096x200x1_S4096x200x2_d2 : Shape.Concatenates [S4096x200x1, S4096x200x1] S4096x200x2 2
  reducesTo_S4096x1000_S4096_d1 : S4096x1000.ReducesTo [1] S4096
  bcast_S4096x1_S4096x1000_0_1 : S4096x1.BroadcastsInDim S4096x1000 (![0, 1] : Fin 2 → Fin S4096x1000.rank)
  gather_S100000x128_S4096x200x1_S4096x200x128_2_0_n_n_0_2_1128_wf : GatherDims.WF S100000x128 S4096x200x1 S4096x200x128 [2] [0] [] [0] [] 2 ![1, 128]
  gather_S100000_S4096x200x1_S4096x200_n_0_n_n_0_2_1_wf : GatherDims.WF S100000 S4096x200x1 S4096x200 [] [0] [] [0] [] 2 ![1]
  scatter_S4096x1000_S4096x200x2_S4096x200_n_01_01_2_wf : ScatterDims.WF S4096x1000 S4096x200x2 S4096x200 [] [0, 1] [0, 1] 2

variable [Facts₀]

def gather_S100000x128_S4096x200x1_S4096x200x128_2_0_n_n_0_2_1128 : GatherDims S100000x128 S4096x200x1 S4096x200x128 where
  offsetDims := [2]
  collapsedSliceDims := [0]
  operandBatchingDims := []
  startIndicesBatchingDims := []
  startIndexMap := [0]
  indexVectorDim := 2
  sliceSizes := ![1, 128]
  wf := gather_S100000x128_S4096x200x1_S4096x200x128_2_0_n_n_0_2_1128_wf
def gather_S100000_S4096x200x1_S4096x200_n_0_n_n_0_2_1 : GatherDims S100000 S4096x200x1 S4096x200 where
  offsetDims := []
  collapsedSliceDims := [0]
  operandBatchingDims := []
  startIndicesBatchingDims := []
  startIndexMap := [0]
  indexVectorDim := 2
  sliceSizes := ![1]
  wf := gather_S100000_S4096x200x1_S4096x200_n_0_n_n_0_2_1_wf
def scatter_S4096x1000_S4096x200x2_S4096x200_n_01_01_2 : ScatterDims S4096x1000 S4096x200x2 S4096x200 where
  updateWindowDims := []
  insertedWindowDims := [0, 1]
  scatterDimsToOperandDims := [0, 1]
  indexVectorDim := 2
  wf := scatter_S4096x1000_S4096x200x2_S4096x200_n_01_01_2_wf

class Facts : Prop extends Facts₀ where

variable [Facts]
-- ==== Proof.RowSpec.lean ====
/-
  The function both programs compute, one output row at a time.

  A sample has a feature vector `f` (128 reals) and 200 neighbours; neighbour `k` has a centre `cen k`
  (128 reals), a log-weight `w k` and a class label `lab k` (a 32-bit word, read signed). Its Gaussian weight is
      exp (-(∑ d, (f d - cen k d)²) · ½) · exp (w k).
  The mass of class `c` is the sum of the weights of the neighbours labelled `c`; an empty class gets the small
  constant 1e-10 (as an f32 word) instead of zero; the row is then normalised to sum one and its logarithm taken:
      out c = log (P c / ∑ c', P c').
  Everything is on the extended reals; the two float words are kept as words and never evaluated.
-/
import Idealize.ShloMosaic.PureOps.Ideal
import Idealize.ShloMosaic.PureOps.Ideal.Laws
import Idealize.ShloMosaic.Lib.ValueIdx

noncomputable section

open scoped BigOperators

namespace Cert.GaussBins

open Idealize.ShloMosaic Idealize.ShloMosaic.ValueIdx

/-- The factor ½ of the Gaussian exponent, as its f32 word. -/
abbrev half : EReal := Ideal.ofBits .f32 0x3F000000#32

/-- The mass given to a class with no neighbour: the f32 word of 1e-10. -/
abbrev tiny : EReal := Ideal.ofBits .f32 0x2EDBE6FF#32

/-- Squared Euclidean distance between a feature vector and a centre. -/
def sqDist (f cen : Fin 128 → EReal) : EReal := ∑ d : Fin 128, (f d - cen d) * (f d - cen d)

/-- The Gaussian weight of one neighbour: `exp (-dist · ½) · exp w`. -/
def nbrWeight (f cen : Fin 128 → EReal) (w : EReal) : EReal :=
  Ideal.exp (-(sqDist f cen) * half) * Ideal.exp w

/-- The mass of class `c`: the weights of the neighbours whose label, read signed, is `c`. -/
def classMass (kern : Fin 200 → EReal) (lab : Fin 200 → BitVec 32) (c : Fin 1000) : EReal :=
  ∑ k : Fin 200, if (lab k).toInt = (c.val : ℤ) then kern k else 0

/-- A class mass that is exactly zero is replaced by the small constant. -/
def filled (p : EReal) : EReal :=
  Scalar.select (FloatOps.cmpf (F := Ideal) (φ := .f32) .oeq p (Ideal.ofBits .f32 0x00000000#32)) tiny p

/-- The filled class masses of one sample. -/
def rowMass (f : Fin 128 → EReal) (cen : Fin 200 → Fin 128 → EReal) (w : Fin 200 → EReal) (lab : Fin 200 → BitVec 32)
    (c : Fin 1000) : EReal :=
  filled (classMass (fun k => nbrWeight f (cen k) (w k)) lab c)

/-- One output row: the logarithm of the normalised filled class masses. -/
def rowOut (f : Fin 128 → EReal) (cen : Fin 200 → Fin 128 → EReal) (w : Fin 200 → EReal) (lab : Fin 200 → BitVec 32)
    (c : Fin 1000) : EReal :=
  Ideal.log (Ideal.div (rowMass f cen w lab c) (∑ c' : Fin 1000, rowMass f cen w lab c'))

/-- The whole result, [4096, 1000], from the features and the three gathered arrays (centres [4096, 200, 128],
    log-weights and labels [4096, 200]): row `b` is `rowOut` of row `b` of each. -/
def result (feat : (⟨2, ![4096, 128]⟩ : Shape).Idx → EReal) (cen : (⟨3, ![4096, 200, 128]⟩ : Shape).Idx → EReal)
    (w : (⟨2, ![4096, 200]⟩ : Shape).Idx → EReal) (lab : (⟨2, ![4096, 200]⟩ : Shape).Idx → BitVec 32) :
    (⟨2, ![4096, 1000]⟩ : Shape).Idx → EReal :=
  fun i => rowOut (fun d => feat (ix2 (i 0) d)) (fun k d => cen (ix3 (i 0) k d)) (fun k => w (ix2 (i 0) k))
    (fun k => lab (ix2 (i 0) k)) (i 1)

end Cert.GaussBins

end
-- ==== Proof.SumLaws.lean ====
/-
  Three small laws the two programs' sums meet in.

  * A sum over 200 neighbours taken forty at a time, the partial sums added in order starting from zero, is the sum
    over all 200 (addition of extended reals is associative and commutative; no finiteness is needed).
  * Testing a label word for equality with the word of a class number `c < 1000` is testing the label, read as a
    signed integer, for equality with `c`.
  * The wrap "add the extent if negative" leaves a nonnegative word alone.
-/
import Idealize.ShloMosaic.PureOps.Ideal
import Idealize.ShloMosaic.PureOps.Ideal.Laws
import Idealize.ShloMosaic.Lib.ValueIdx
import Mathlib.Algebra.BigOperators.Fin

noncomputable section

open scoped BigOperators

namespace Cert.GaussBins

open Idealize.ShloMosaic

/-- A sum over 200 terms, taken forty at a time and accumulated from zero in order. -/
theorem sum_by_forties (f : Fin 200 → EReal) :
    ((((0 + ∑ k : Fin 40, f ⟨k.val, by omega⟩) + ∑ k : Fin 40, f ⟨40 + k.val, by omega⟩)
        + ∑ k : Fin 40, f ⟨80 + k.val, by omega⟩) + ∑ k : Fin 40, f ⟨120 + k.val, by omega⟩)
        + ∑ k : Fin 40, f ⟨160 + k.val, by omega⟩
      = ∑ k : Fin 200, f k := by
  -- Split off the last forty terms four times: 200 = 160 + 40, 160 = 120 + 40, 120 = 80 + 40, 80 = 40 + 40.
  -- In each split the low part is indexed by `k` itself and the high part by `m + k`.
  have s1 : ∑ k : Fin 200, f k
      = ∑ k : Fin 160, f ⟨k.val, by omega⟩ + ∑ k : Fin 40, f ⟨160 + k.val, by omega⟩ :=
    Fin.sum_univ_add (a := 160) (b := 40) f
  have s2 : ∑ k : Fin 160, f ⟨k.val, by omega⟩
      = ∑ k : Fin 120, f ⟨k.val, by omega⟩ + ∑ k : Fin 40, f ⟨120 + k.val, by omega⟩ :=
    Fin.sum_univ_add (a := 120) (b := 40) fun k => f ⟨k.val, by omega⟩
  have s3 : ∑ k : Fin 120, f ⟨k.val, by omega⟩
      = ∑ k : Fin 80, f ⟨k.val, by omega⟩ + ∑ k : Fin 40, f ⟨80 + k.val, by omega⟩ :=
    Fin.sum_univ_add (a := 80) (b := 40) fun k => f ⟨k.val, by omega⟩
  have s4 : ∑ k : Fin 80, f ⟨k.val, by omega⟩
      = ∑ k : Fin 40, f ⟨k.val, by omega⟩ + ∑ k : Fin 40, f ⟨40 + k.val, by omega⟩ :=
    Fin.sum_univ_add (a := 40) (b := 40) fun k => f ⟨k.val, by omega⟩
  -- The nested splits, read from the inside out, are the accumulation in order; the leading zero drops.
  rw [zero_add, s1, s2, s3, s4]

/-- A label word equals the word of class `c` exactly when the label, read signed, is `c`. -/
theorem select_label_eq {α : Type} (l : BitVec 32) (c : Fin 1000) (a b : α) :
    Scalar.select (IntOp.cmpi .eq l (BitVec.ofNat 32 c.val)) a b = if l.toInt = (c.val : ℤ) then a else b := by
  -- A class number below 1000 is far below 2³¹, so its 32-bit word reads back, unsigned and signed, as itself.
  have hlt : c.val < 2 ^ 32 := by omega
  have hn : (BitVec.ofNat 32 c.val).toNat = c.val := by
    rw [BitVec.toNat_ofNat, Nat.mod_eq_of_lt hlt]
  have hc : (BitVec.ofNat 32 c.val).toInt = (c.val : ℤ) := by
    rw [BitVec.toInt_eq_toNat_of_lt (by rw [hn]; omega), hn]
  -- Equal words have equal signed readings, and the signed reading is injective.
  by_cases h : l = BitVec.ofNat 32 c.val
  · have hi : l.toInt = (c.val : ℤ) := by rw [h, hc]
    have hb : (l == BitVec.ofNat 32 c.val) = true := beq_iff_eq.mpr h
    simp [Scalar.select, IntOp.cmpi, hb, hi]
  · have hi : l.toInt ≠ (c.val : ℤ) := fun e => h (BitVec.eq_of_toInt_eq (e.trans hc.symm))
    have hb : (l == BitVec.ofNat 32 c.val) = false := beq_eq_false_iff_ne.mpr h
    simp [Scalar.select, IntOp.cmpi, hb, hi]

/-- A nonnegative word is not below zero as a signed word, so "add `n` if negative" returns it unchanged. -/
theorem wrap_of_nonneg (l n : BitVec 32) (h : 0 ≤ l.toInt) :
    Scalar.select (IntOp.cmpi .slt l 0#32) (IntOp.addi l n) l = l := by
  -- Signed "less than zero" compares the signed readings, and the zero word reads as 0.
  have hs : l.slt 0#32 = false := by
    rw [BitVec.slt_eq_decide, BitVec.toInt_zero, decide_eq_false_iff_not]
    omega
  simp [Scalar.select, IntOp.cmpi, hs]

end Cert.GaussBins

end
-- ==== Proof.KernelRow.lean ====
/-
  One grid point of the kernel, read at one element of its output block.

  The body loads a block of 32 samples: their features [32, 128] and, already gathered, their 200 neighbours' centres
  [32, 200, 128], log-weights [32, 200] and labels [32, 200]. It works through the neighbours forty at a time; for
  each group it forms the squared distances (a lane sum over the 128 features), the Gaussian weights, a mask comparing
  each label with the class number along the last axis, and adds the masked weights summed over the forty neighbours
  to a running [32, 1000] accumulator that starts at zero. Then it replaces exact zeros, normalises each row and takes
  the logarithm. Element (r, c) of what it stores is the row function of sample r's data at class c.
-/
import proofs.«419138_j84731114816366_1_alg».proof.Proof.Gen.KernelIdeal.Frame
import proofs.«419138_j84731114816366_1_alg».proof.Proof.RowSpec
import proofs.«419138_j84731114816366_1_alg».proof.Proof.SumLaws
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

open scoped BigOperators

namespace Cert.KernelIdeal.RowValue

open Cert.KernelIdeal Cert.KernelIdeal.Gen Idealize.ShloMosaic Idealize.ShloMosaic.ValueIdx

/-! ## Indices the layout operations read -/

/-- The index a sum over the forty neighbours inserts. -/
theorem lift_nbr (r : Fin 32) (c : Fin 1000) (k : Fin 40) :
    reduces_S32x40x1000_S32x1000.lift (ix2 r c) k = ix3 r k c := by
  funext a
  match a with
  | ⟨0, _⟩ => rfl
  | ⟨1, _⟩ => rfl
  | ⟨2, _⟩ => rfl

/-- A [32, 40, 1] column spread along the class axis reads, at (r, k, c), the column at (r, k, 0). -/
theorem spread_apply {α : Type} (v : S32x40x1.Idx → α) (r : Fin 32) (k : Fin 40) (c : Fin 1000) :
    broadcastTo S32x40x1000 v broadcasts_S32x40x1_S32x40x1000 (ix3 r k c) = v (ix3 r k (0 : Fin 1)) := by
  refine broadcastTo_apply v _ (ix3 r k c) (ix3 r k (0 : Fin 1)) fun a => ?_
  match a with
  | ⟨0, _⟩ => rfl
  | ⟨1, _⟩ => rfl
  | ⟨2, _⟩ => rfl

/-- A [32, 40] array given a trailing unit axis reads, at (r, k, 0), the array at (r, k). -/
theorem column_apply {α : Type} (g : S32x40.Idx → α) (r : Fin 32) (k : Fin 40) (u : Fin 1) :
    shapeCast S32x40x1 g shapeCasts_S32x40_S32x40x1 (ix3 r k u) = g (ix2 r k) := by
  refine shapeCast_apply g _ (ix3 r k u) (ix2 r k) ?_
  have hu : u.val = 0 := by omega
  rw [Shape.rowMajor_val_three, Shape.rowMajor_val_two]
  show r.val * 40 + k.val = (r.val * 40 + k.val) * 1 + u.val
  omega

/-- The index a sum over the 128 features inserts. -/
theorem lift_feat (r : Fin 32) (k : Fin 40) (d : Fin 128) :
    reduces_S32x40x128_S32x40.lift (ix2 r k) d = ix3 r k d := by
  funext a
  match a with
  | ⟨0, _⟩ => rfl
  | ⟨1, _⟩ => rfl
  | ⟨2, _⟩ => rfl

/-- The feature block given a middle unit axis and spread over the forty neighbours reads, at (r, k, d), the
    features at (r, d). -/
theorem featSpread_apply (x0 : Vec Ideal S32x128 .f32) (r : Fin 32) (k : Fin 40) (d : Fin 128) :
    broadcastTo S32x40x128 (shapeCast S32x1x128 x0 shapeCasts_S32x128_S32x1x128) broadcasts_S32x1x128_S32x40x128
        (ix3 r k d) = x0 (ix2 r d) := by
  refine (broadcastTo_apply _ _ (ix3 r k d) (ix3 r (0 : Fin 1) d) fun a => ?_).trans ?_
  · match a with
    | ⟨0, _⟩ => rfl
    | ⟨1, _⟩ => rfl
    | ⟨2, _⟩ => rfl
  · refine shapeCast_apply x0 _ (ix3 r (0 : Fin 1) d) (ix2 r d) ?_
    rw [Shape.rowMajor_val_three, Shape.rowMajor_val_two]
    show r.val * 128 + d.val = (r.val * 1 + 0) * 128 + d.val
    omega

/-! ## Squared distances and Gaussian weights of one group -/

/-- The squared distances of a group of forty neighbours' centres from the features, as the body forms them:
    the difference, squared, summed over the 128 features. -/
def sqDists (x0 : Vec Ideal S32x128 .f32) (v : FVec Ideal S32x40x128 .f32) : FVec Ideal S32x40 .f32 :=
  multiReduction (F := Ideal) .add [2] S32x40
    (mulf
      (subf (broadcastTo S32x40x128 (shapeCast S32x1x128 x0 shapeCasts_S32x128_S32x1x128)
        broadcasts_S32x1x128_S32x40x128) v)
      (subf (broadcastTo S32x40x128 (shapeCast S32x1x128 x0 shapeCasts_S32x128_S32x1x128)
        broadcasts_S32x1x128_S32x40x128) v))
    0x00000000#32 reduces_S32x40x128_S32x40 (.inl rfl) rfl

/-- At (r, k) it is the squared distance of sample r's features from neighbour k's centre. -/
theorem sqDists_apply (x0 : Vec Ideal S32x128 .f32) (v : FVec Ideal S32x40x128 .f32) (r : Fin 32) (k : Fin 40) :
    sqDists x0 v (ix2 r k) = Cert.GaussBins.sqDist (fun d => x0 (ix2 r d)) (fun d => v (ix3 r k d)) := by
  unfold sqDists Cert.GaussBins.sqDist
  refine (Ideal.multiReduction_add_single _ _ reduces_S32x40x128_S32x40 _ _ (ix2 r k)).trans ?_
  refine Finset.sum_congr rfl fun (d : Fin 128) _ => ?_
  rw [lift_feat r k d, mulf_apply, subf_apply, featSpread_apply]

/-- The Gaussian weights of a group of forty neighbours, as the body forms them. -/
def gaussW (x0 : Vec Ideal S32x128 .f32) (v : FVec Ideal S32x40x128 .f32) (w : FVec Ideal S32x40 .f32) :
    FVec Ideal S32x40 .f32 :=
  mulf
    (exp (mulf
      (subf (broadcast S32x40 (Scalar.ofBits (F := Ideal) .f32 0x00000000#32)) (sqDists x0 v))
      (broadcast S32x40 (Scalar.ofBits (F := Ideal) .f32 0x3F000000#32))))
    (exp w)

/-- At (r, k) it is the Gaussian weight of sample r's features against neighbour k's centre and log-weight. -/
theorem gaussW_apply (x0 : Vec Ideal S32x128 .f32) (v : FVec Ideal S32x40x128 .f32) (w : FVec Ideal S32x40 .f32)
    (r : Fin 32) (k : Fin 40) :
    gaussW x0 v w (ix2 r k)
      = Cert.GaussBins.nbrWeight (fun d => x0 (ix2 r d)) (fun d => v (ix3 r k d)) (w (ix2 r k)) := by
  unfold gaussW Cert.GaussBins.nbrWeight
  show Ideal.exp ((Ideal.ofBits .f32 0x00000000#32 - sqDists x0 v (ix2 r k)) * Ideal.ofBits .f32 0x3F000000#32)
      * Ideal.exp (w (ix2 r k)) = _
  rw [sqDists_apply, Ideal.ofBits_zero_f32, zero_sub]

/-! ## The mask and the masked sum of one group -/

/-- The mask of a group of forty labels: along the last axis, label k against the class number. -/
def labelMask (l : IVec S32x40 32) : IVec S32x40x1000 1 :=
  cmpi .eq
    (broadcastTo S32x40x1000 (shapeCast S32x40x1 l shapeCasts_S32x40_S32x40x1) broadcasts_S32x40x1_S32x40x1000)
    (iota .tc S32x40x1000 32 [2] iota_S32x40x1000_d2_w32)

/-- At (r, k, c) it compares neighbour k's label word with the word of c. -/
theorem labelMask_apply (l : IVec S32x40 32) (r : Fin 32) (k : Fin 40) (c : Fin 1000) :
    labelMask l (ix3 r k c) = IntOp.cmpi .eq (l (ix2 r k)) (BitVec.ofNat 32 c.val) := by
  unfold labelMask
  show IntOp.cmpi .eq
      (broadcastTo S32x40x1000 (shapeCast S32x40x1 l shapeCasts_S32x40_S32x40x1) broadcasts_S32x40x1_S32x40x1000
        (ix3 r k c))
      (iota .tc S32x40x1000 32 [2] iota_S32x40x1000_d2_w32 (ix3 r k c)) = _
  rw [spread_apply, column_apply, iota_single_apply]

/-- Masked weights of a group summed over its forty neighbours: what one group adds to the accumulator. -/
def maskedSum (g : FVec Ideal S32x40 .f32) (mk : IVec S32x40x1000 1) : FVec Ideal S32x1000 .f32 :=
  multiReduction (F := Ideal) .add [1] S32x1000
    (select mk
      (broadcastTo S32x40x1000
        (shapeCast S32x40x1 (shapeCast S32x40x1 g shapeCasts_S32x40_S32x40x1) shapeCasts_S32x40x1_S32x40x1)
        broadcasts_S32x40x1_S32x40x1000)
      (broadcast S32x40x1000 (Scalar.ofBits (F := Ideal) .f32 0x00000000#32)))
    0x00000000#32 reduces_S32x40x1000_S32x1000 (.inl rfl) rfl

/-- At (r, c): each neighbour's weight where its mask bit at (r, k, c) is set. -/
theorem maskedSum_apply (g : FVec Ideal S32x40 .f32) (mk : IVec S32x40x1000 1) (r : Fin 32) (c : Fin 1000) :
    maskedSum g mk (ix2 r c) = ∑ k : Fin 40, Scalar.select (mk (ix3 r k c)) (g (ix2 r k)) 0 := by
  unfold maskedSum
  refine (Ideal.multiReduction_add_single _ _ reduces_S32x40x1000_S32x1000 _ _ (ix2 r c)).trans ?_
  refine Finset.sum_congr rfl fun (k : Fin 40) _ => ?_
  rw [lift_nbr r c k, select_apply, spread_apply, shapeCast_self, column_apply, broadcast_apply]
  exact congrArg (Scalar.select _ _) Ideal.ofBits_zero_f32

/-- What one group of forty neighbours adds to the accumulator at (r, c): the Gaussian weights of those of its
    neighbours whose label, read signed, is c. -/
theorem group_apply (x0 : Vec Ideal S32x128 .f32) (v : FVec Ideal S32x40x128 .f32) (w : FVec Ideal S32x40 .f32)
    (l : IVec S32x40 32) (r : Fin 32) (c : Fin 1000) :
    maskedSum (gaussW x0 v w) (labelMask l) (ix2 r c)
      = ∑ k : Fin 40, if (l (ix2 r k)).toInt = (c.val : ℤ)
          then Cert.GaussBins.nbrWeight (fun d => x0 (ix2 r d)) (fun d => v (ix3 r k d)) (w (ix2 r k)) else 0 := by
  rw [maskedSum_apply]
  refine Finset.sum_congr rfl fun k _ => ?_
  rw [labelMask_apply, Cert.GaussBins.select_label_eq, gaussW_apply]

/-! ## The loads: forty neighbours from an offset along the neighbour axis -/

theorem offsets_zero : (![0, 0] : Fin 2 → Nat) = fun _ => 0 := funext fun a => by
  match a with
  | ⟨0, _⟩ => rfl
  | ⟨1, _⟩ => rfl

/-- Forty centres loaded from neighbour offset o read, at (r, k, d), the centre block at (r, o + k, d). -/
theorem ld_centres (x1 : Vec Ideal S32x200x128 .f32) (o : Nat)
    (inb : ∀ a, (![0, o, 0] : Fin 3 → Nat) a + S32x40x128.size a ≤ S32x200x128.size a)
    (r : Fin 32) (k : Fin 40) (d : Fin 128) (h : o + k.val < 200) :
    View.ld x1 (Rect.unit (s := S32x200x128) ![0, o, 0] S32x40x128.size inb) (ix3 r k d)
      = x1 (ix3 r ⟨o + k.val, h⟩ d) := by
  refine congrArg x1 (funext fun a => Fin.ext ?_)
  match a with
  | ⟨0, _⟩ => show 0 + 1 * r.val = r.val; omega
  | ⟨1, _⟩ => show o + 1 * k.val = o + k.val; omega
  | ⟨2, _⟩ => show 0 + 1 * d.val = d.val; omega

/-- Forty entries of a [32, 200] block loaded from neighbour offset o read, at (r, k), the block at (r, o + k). -/
theorem ld_nbrs {e : EltTy} (x : Vec Ideal S32x200 e) (o : Nat)
    (inb : ∀ a, (![0, o] : Fin 2 → Nat) a + S32x40.size a ≤ S32x200.size a)
    (r : Fin 32) (k : Fin 40) (h : o + k.val < 200) :
    View.ld x (Rect.unit (s := S32x200) ![0, o] S32x40.size inb) (ix2 r k) = x (ix2 r ⟨o + k.val, h⟩) := by
  refine congrArg x (funext fun a => Fin.ext ?_)
  match a with
  | ⟨0, _⟩ => show 0 + 1 * r.val = r.val; omega
  | ⟨1, _⟩ => show o + 1 * k.val = o + k.val; omega

/-! ## One group read from the input blocks -/

/-- The weight of neighbour k of sample r if its label is c, else zero: the summand of a class mass. -/
abbrev term (x0 : Vec Ideal S32x128 .f32) (x1 : Vec Ideal S32x200x128 .f32) (x2 : Vec Ideal S32x200 .f32)
    (x3 : Vec Ideal S32x200 .i32) (r : Fin 32) (c : Fin 1000) (k : Fin 200) : EReal :=
  if (x3 (ix2 r k)).toInt = (c.val : ℤ)
    then Cert.GaussBins.nbrWeight (fun d => x0 (ix2 r d)) (fun d => x1 (ix3 r k d)) (x2 (ix2 r k)) else 0

/-- What the group of forty neighbours loaded from offset o adds at (r, c). -/
theorem group_ld_apply (x0 : Vec Ideal S32x128 .f32) (x1 : Vec Ideal S32x200x128 .f32) (x2 : Vec Ideal S32x200 .f32)
    (x3 : Vec Ideal S32x200 .i32) (o : Nat) (ho : o + 40 ≤ 200)
    (inb1 : ∀ a, (![0, o, 0] : Fin 3 → Nat) a + S32x40x128.size a ≤ S32x200x128.size a)
    (inb2 : ∀ a, (![0, o] : Fin 2 → Nat) a + S32x40.size a ≤ S32x200.size a) (r : Fin 32) (c : Fin 1000) :
    maskedSum
        (gaussW x0 (View.ld x1 (Rect.unit (s := S32x200x128) ![0, o, 0] S32x40x128.size inb1))
          (View.ld x2 (Rect.unit (s := S32x200) ![0, o] S32x40.size inb2)))
        (labelMask (View.ld x3 (Rect.unit (s := S32x200) ![0, o] S32x40.size inb2))) (ix2 r c)
      = ∑ k : Fin 40, term x0 x1 x2 x3 r c ⟨o + k.val, by omega⟩ := by
  rw [group_apply]
  refine Finset.sum_congr rfl fun k _ => ?_
  have hk : o + k.val < 200 := by omega
  have e : (fun d => View.ld x1 (Rect.unit (s := S32x200x128) ![0, o, 0] S32x40x128.size inb1) (ix3 r k d))
      = fun d => x1 (ix3 r ⟨o + k.val, hk⟩ d) := funext fun d => ld_centres x1 o inb1 r k d hk
  rw [ld_nbrs x3 o inb2 r k hk, ld_nbrs x2 o inb2 r k hk, e]

/-! ## The payloads as these terms -/

theorem pay3_eq (v : Vec Ideal S32x40x128 .f32) : k0_pay3 (F := Ideal) v = v := shapeCast_self v _
theorem pay4_eq (w : Vec Ideal S32x40 .f32) : k0_pay4 (F := Ideal) w = w := shapeCast_self w _
theorem pay5_eq (l : Vec Ideal S32x40 .i32) : k0_pay5 (F := Ideal) l = l := shapeCast_self l _
theorem pay10_eq (v : Vec Ideal S32x40x128 .f32) : k0_pay10 (F := Ideal) v = v := shapeCast_self v _
theorem pay11_eq (w : Vec Ideal S32x40 .f32) : k0_pay11 (F := Ideal) w = w := shapeCast_self w _

theorem pay7_eq (x0 : Vec Ideal S32x128 .f32) (v : Vec Ideal S32x40x128 .f32) (w : Vec Ideal S32x40 .f32) :
    k0_pay7 x0 v w = gaussW x0 v w := by
  have e : k0_pay7 x0 v w = gaussW x0 (shapeCast S32x40x128 v shapeCasts_S32x40x128_S32x40x128)
      (shapeCast S32x40 w shapeCasts_S32x40_S32x40) := rfl
  rw [e, shapeCast_self, shapeCast_self]

theorem pay8_eq (l : Vec Ideal S32x40 .i32) : k0_pay8 (F := Ideal) l = labelMask l := by
  have e : k0_pay8 (F := Ideal) l = labelMask (shapeCast S32x40 l shapeCasts_S32x40_S32x40) := rfl
  rw [e, shapeCast_self]

theorem pay2_eq (x0 : Vec Ideal S32x128 .f32) (v : Vec Ideal S32x40x128 .f32) (w : Vec Ideal S32x40 .f32)
    (l : Vec Ideal S32x40 .i32) :
    k0_pay2 x0 v w l
      = addf (broadcast S32x1000 (Scalar.ofBits (F := Ideal) .f32 0x00000000#32))
          (maskedSum (gaussW x0 v w) (labelMask l)) := by
  have e : k0_pay2 x0 v w l
      = addf (broadcast S32x1000 (Scalar.ofBits (F := Ideal) .f32 0x00000000#32))
          (maskedSum (gaussW x0 (shapeCast S32x40x128 v shapeCasts_S32x40x128_S32x40x128)
            (shapeCast S32x40 w shapeCasts_S32x40_S32x40))
            (labelMask (shapeCast S32x40 l shapeCasts_S32x40_S32x40))) := rfl
  rw [e, shapeCast_self, shapeCast_self, shapeCast_self]

theorem pay6_eq (x0 : Vec Ideal S32x128 .f32) (acc : FVec Ideal S32x1000 .f32) (v : FVec Ideal S32x40x128 .f32)
    (w : FVec Ideal S32x40 .f32) (l : IVec S32x40 32) :
    k0_pay6 x0 acc v w l = addf acc (maskedSum (gaussW x0 v w) (labelMask l)) := rfl

theorem pay9_eq (x0 : Vec Ideal S32x128 .f32) (acc : FVec Ideal S32x1000 .f32) (g : FVec Ideal S32x40 .f32)
    (mk : IVec S32x40x1000 1) (v : Vec Ideal S32x40x128 .f32) (w : Vec Ideal S32x40 .f32)
    (l : Vec Ideal S32x40 .i32) :
    k0_pay9 x0 acc g mk v w l
      = addf (addf acc (maskedSum g mk)) (maskedSum (gaussW x0 v w) (labelMask l)) := by
  have e : k0_pay9 x0 acc g mk v w l
      = addf (addf acc (maskedSum g mk))
          (maskedSum (gaussW x0 (shapeCast S32x40x128 v shapeCasts_S32x40x128_S32x40x128)
            (shapeCast S32x40 w shapeCasts_S32x40_S32x40))
            (labelMask (shapeCast S32x40 l shapeCasts_S32x40_S32x40))) := rfl
  rw [e, shapeCast_self, shapeCast_self, shapeCast_self]

/-! ## The epilogue -/

/-- Class masses that are exactly zero replaced by the small constant. -/
def fillZeros (P : FVec Ideal S32x1000 .f32) : FVec Ideal S32x1000 .f32 :=
  select (cmpf .oeq P (broadcast S32x1000 (Scalar.ofBits (F := Ideal) .f32 0x00000000#32)))
    (broadcast S32x1000 (Scalar.ofBits (F := Ideal) .f32 0x2EDBE6FF#32)) P

theorem fillZeros_apply (P : FVec Ideal S32x1000 .f32) (i : S32x1000.Idx) :
    fillZeros P i = Cert.GaussBins.filled (P i) := rfl

/-- The index a sum over the 1000 classes inserts. -/
theorem lift_class (r : Fin 32) (c : Fin 1000) : reduces_S32x1000_S32.lift (ix1 r) c = ix2 r c := by
  funext a
  match a with
  | ⟨0, _⟩ => rfl
  | ⟨1, _⟩ => rfl

/-- A [32] vector given a trailing unit axis reads, at (r, 0), the vector at r. -/
theorem rowColumn_apply {α : Type} (s : S32.Idx → α) (r : Fin 32) (u : Fin 1) :
    shapeCast S32x1 s shapeCasts_S32_S32x1 (ix2 r u) = s (ix1 r) := by
  refine shapeCast_apply s _ (ix2 r u) (ix1 r) ?_
  have hu : u.val = 0 := by omega
  rw [Shape.rowMajor_val_two, Shape.rowMajor_val_one]
  show r.val = r.val * 1 + u.val
  omega

/-- A [32, 1] column spread along the class axis reads, at (r, c), the column at (r, 0). -/
theorem rowSpread_apply {α : Type} (q : S32x1.Idx → α) (r : Fin 32) (c : Fin 1000) :
    broadcastTo S32x1000 q broadcasts_S32x1_S32x1000 (ix2 r c) = q (ix2 r (0 : Fin 1)) := by
  refine broadcastTo_apply q _ (ix2 r c) (ix2 r (0 : Fin 1)) fun a => ?_
  match a with
  | ⟨0, _⟩ => rfl
  | ⟨1, _⟩ => rfl

/-- Each row divided by its sum over the 1000 classes, then the logarithm. -/
def normLog (Q : FVec Ideal S32x1000 .f32) : FVec Ideal S32x1000 .f32 :=
  log (divf Q
    (broadcastTo S32x1000
      (shapeCast S32x1
        (multiReduction (F := Ideal) .add [1] S32 Q 0x00000000#32 reduces_S32x1000_S32 (.inl rfl) rfl)
        shapeCasts_S32_S32x1)
      broadcasts_S32x1_S32x1000))

theorem normLog_apply (Q : FVec Ideal S32x1000 .f32) (r : Fin 32) (c : Fin 1000) :
    normLog Q (ix2 r c) = Ideal.log (Ideal.div (Q (ix2 r c)) (∑ c' : Fin 1000, Q (ix2 r c'))) := by
  unfold normLog
  show Ideal.log (Ideal.div (Q (ix2 r c))
      (broadcastTo S32x1000
        (shapeCast S32x1
          (multiReduction (F := Ideal) .add [1] S32 Q 0x00000000#32 reduces_S32x1000_S32 (.inl rfl) rfl)
          shapeCasts_S32_S32x1)
        broadcasts_S32x1_S32x1000 (ix2 r c))) = _
  rw [rowSpread_apply, rowColumn_apply]
  refine congrArg (fun s => Ideal.log (Ideal.div (Q (ix2 r c)) s)) ?_
  refine (Ideal.multiReduction_add_single _ _ reduces_S32x1000_S32 _ _ (ix1 r)).trans ?_
  exact Finset.sum_congr rfl fun (c' : Fin 1000) _ => congrArg Q (lift_class r c')

theorem pay1_eq (x0 : Vec Ideal S32x128 .f32) (acc : FVec Ideal S32x1000 .f32) (v : FVec Ideal S32x40x128 .f32)
    (w : FVec Ideal S32x40 .f32) (l : Vec Ideal S32x40 .i32) :
    k0_pay1 x0 acc v w l = normLog (fillZeros (addf acc (maskedSum (gaussW x0 v w) (labelMask l)))) := by
  have e : k0_pay1 x0 acc v w l
      = normLog (fillZeros (addf acc (maskedSum (gaussW x0 v w)
          (labelMask (shapeCast S32x40 l shapeCasts_S32x40_S32x40))))) := rfl
  rw [e, shapeCast_self]

/-! ## The accumulator and the stored block -/

/-- The accumulator after the five groups: zero, then each group's masked sum added in order. -/
def massAcc (x0 : Vec Ideal S32x128 .f32) (x1 : Vec Ideal S32x200x128 .f32) (x2 : Vec Ideal S32x200 .f32)
    (x3 : Vec Ideal S32x200 .i32) : FVec Ideal S32x1000 .f32 :=
  addf (addf (addf (addf (addf (broadcast S32x1000 (Scalar.ofBits (F := Ideal) .f32 0x00000000#32))
    (maskedSum (gaussW x0 (View.ld x1 r0_1) (View.ld x2 r0_2)) (labelMask (View.ld x3 r0_2))))
    (maskedSum (gaussW x0 (View.ld x1 r0_3) (View.ld x2 r0_4)) (labelMask (View.ld x3 r0_4))))
    (maskedSum (gaussW x0 (View.ld x1 r0_5) (View.ld x2 r0_6)) (labelMask (View.ld x3 r0_6))))
    (maskedSum (gaussW x0 (View.ld x1 r0_7) (View.ld x2 r0_8)) (labelMask (View.ld x3 r0_8))))
    (maskedSum (gaussW x0 (View.ld x1 r0_9) (View.ld x2 r0_10)) (labelMask (View.ld x3 r0_10)))

/-- The stored block is the epilogue of that accumulator. -/
theorem out_eq (x0 : Vec Ideal S32x128 .f32) (x1 : Vec Ideal S32x200x128 .f32) (x2 : Vec Ideal S32x200 .f32)
    (x3 : Vec Ideal S32x200 .i32) :
    out0_4 (F := Ideal) x0 x1 x2 x3 = normLog (fillZeros (massAcc x0 x1 x2 x3)) := by
  unfold out0_4
  rw [View.canon_unit_zero offsets_zero]
  simp only [View.ld_unit_zero (S := S32x128) offsets_zero]
  rw [pay1_eq, pay9_eq, pay6_eq, pay2_eq, pay7_eq, pay8_eq, pay3_eq, pay4_eq, pay5_eq, pay10_eq, pay11_eq]
  rfl

/-- At (r, c) the accumulator is the mass of class c among sample r's 200 neighbours. -/
theorem massAcc_apply (x0 : Vec Ideal S32x128 .f32) (x1 : Vec Ideal S32x200x128 .f32) (x2 : Vec Ideal S32x200 .f32)
    (x3 : Vec Ideal S32x200 .i32) (r : Fin 32) (c : Fin 1000) :
    massAcc x0 x1 x2 x3 (ix2 r c)
      = Cert.GaussBins.classMass
          (fun k => Cert.GaussBins.nbrWeight (fun d => x0 (ix2 r d)) (fun d => x1 (ix3 r k d)) (x2 (ix2 r k)))
          (fun k => x3 (ix2 r k)) c := by
  -- each group's contribution, as a sum of forty summands of the class mass
  have e0 : maskedSum (gaussW x0 (View.ld x1 r0_1) (View.ld x2 r0_2)) (labelMask (View.ld x3 r0_2)) (ix2 r c)
      = ∑ k : Fin 40, term x0 x1 x2 x3 r c ⟨k.val, by omega⟩ := by
    refine (group_ld_apply x0 x1 x2 x3 0 (by omega) _ _ r c).trans ?_
    exact Finset.sum_congr rfl fun k _ => congrArg (term x0 x1 x2 x3 r c) (Fin.ext (Nat.zero_add _))
  have e1 := group_ld_apply x0 x1 x2 x3 40 (by omega) inb_S32x200x128_S32x40x128_0_40_0 inb_S32x200_S32x40_0_40 r c
  have e2 := group_ld_apply x0 x1 x2 x3 80 (by omega) inb_S32x200x128_S32x40x128_0_80_0 inb_S32x200_S32x40_0_80 r c
  have e3 := group_ld_apply x0 x1 x2 x3 120 (by omega) inb_S32x200x128_S32x40x128_0_120_0 inb_S32x200_S32x40_0_120 r c
  have e4 := group_ld_apply x0 x1 x2 x3 160 (by omega) inb_S32x200x128_S32x40x128_0_160_0 inb_S32x200_S32x40_0_160 r c
  unfold massAcc
  rw [addf_apply, addf_apply, addf_apply, addf_apply, addf_apply, broadcast_apply, e0, e1, e2, e3, e4]
  -- the zero word is 0; forty at a time from zero is the whole sum
  refine Eq.trans ?_ (Cert.GaussBins.sum_by_forties (term x0 x1 x2 x3 r c))
  exact congrArg (fun z => ((((z + _) + _) + _) + _) + _) Ideal.ofBits_zero_f32

/-- Element (r, c) of the block the body stores is the row function of row r of its four input blocks. -/
theorem out_row (x0 : Vec Ideal S32x128 .f32) (x1 : Vec Ideal S32x200x128 .f32) (x2 : Vec Ideal S32x200 .f32)
    (x3 : Vec Ideal S32x200 .i32) (r : Fin 32) (c : Fin 1000) :
    out0_4 (F := Ideal) x0 x1 x2 x3 (ix2 r c)
      = Cert.GaussBins.rowOut (fun d => x0 (ix2 r d)) (fun k d => x1 (ix3 r k d)) (fun k => x2 (ix2 r k))
          (fun k => x3 (ix2 r k)) c := by
  rw [out_eq, normLog_apply]
  simp only [fillZeros_apply, massAcc_apply]
  rfl

end Cert.KernelIdeal.RowValue

end
-- ==== Proof.KernelArr.lean ====
/-
  From the kernel's blocks to its whole result array.

  The grid has 128 points; point t works on samples 32·t … 32·t + 31: every window's block at t is rows
  32·t … 32·t + 31 of its array (all other axes whole), and the output blocks tile the [4096, 1000] result. Each
  block written back is the row function of the same rows of the input arrays, so the final array is the row function
  of the whole input arrays, row by row.
-/
import proofs.«419138_j84731114816366_1_alg».proof.Proof.Gen.KernelIdeal.Value
import proofs.«419138_j84731114816366_1_alg».proof.Proof.KernelRow

set_option maxRecDepth 16384

noncomputable section

namespace Cert.KernelIdeal.ArrValue

open Cert.KernelIdeal Cert.KernelIdeal.Gen Cert.KernelIdeal.Value Idealize.ShloMosaic Idealize.ShloMosaic.TcCoe
open Idealize.ShloMosaic.ValueIdx Idealize.SL.Sem
open Idealize.ShloMosaic.Pipeline (Dat)

variable (m : (ℓ : Loc nD τ sig) → Buf (Elt Ideal) ℓ)

/-- The features as the region finds them, at their literal type. -/
abbrev featArr (c : Dev nD) : FVec Ideal S4096x128 .f32 := V m c main_arg0
/-- The gathered centres as the region finds them. -/
abbrev cenArr (c : Dev nD) : FVec Ideal S4096x200x128 .f32 := V m c main_v6
/-- The gathered log-weights as the region finds them. -/
abbrev wArr (c : Dev nD) : FVec Ideal S4096x200 .f32 := V m c main_v13
/-- The gathered labels as the region finds them. -/
abbrev labArr (c : Dev nD) : IVec S4096x200 32 := V m c main_v20

/-- Where the blocks sit: at point t every window's block index is t on the sample axis and 0 on every other axis. -/
theorem blockIndex : ∀ t : Fin cfg0.N,
    win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- Row r of the feature block at point t is sample 32·t + r of the features. -/
theorem featBlock (c : Dev nD) (t : Fin cfg0.N) (r : Fin 32) (d : Fin 128) (hb : 32 * t.val + r.val < 4096) :
    (iblk m c 0 t : Vec Ideal S32x128 .f32) (ix2 r d) = featArr m c (ix2 ⟨32 * t.val + r.val, hb⟩ d) := by
  obtain ⟨e0, e1, -⟩ := blockIndex t
  unfold iblk
  rw [View.read_apply]
  show V m c main_arg0 _ = V m c main_arg0 _
  congr 1
  funext a
  apply Fin.ext
  match a with
  | ⟨0, _⟩ => show win0_0.index t (0 : Fin 2) * 32 + 1 * r.val = 32 * t.val + r.val; omega
  | ⟨1, _⟩ => show win0_0.index t (1 : Fin 2) * 128 + 1 * d.val = d.val; omega

/-- Row r of the centre block at point t is sample 32·t + r of the gathered centres. -/
theorem cenBlock (c : Dev nD) (t : Fin cfg0.N) (r : Fin 32) (k : Fin 200) (d : Fin 128) (hb : 32 * t.val + r.val < 4096) :
    (iblk m c 1 t : Vec Ideal S32x200x128 .f32) (ix3 r k d) = cenArr m c (ix3 ⟨32 * t.val + r.val, hb⟩ k d) := by
  obtain ⟨-, -, e0, e1, e2, -⟩ := blockIndex t
  unfold iblk
  rw [View.read_apply]
  show V m c main_v6 _ = V m c main_v6 _
  congr 1
  funext a
  apply Fin.ext
  match a with
  | ⟨0, _⟩ => show win0_1.index t (0 : Fin 3) * 32 + 1 * r.val = 32 * t.val + r.val; omega
  | ⟨1, _⟩ => show win0_1.index t (1 : Fin 3) * 200 + 1 * k.val = k.val; omega
  | ⟨2, _⟩ => show win0_1.index t (2 : Fin 3) * 128 + 1 * d.val = d.val; omega

/-- Row r of the log-weight block at point t is sample 32·t + r of the gathered log-weights. -/
theorem wBlock (c : Dev nD) (t : Fin cfg0.N) (r : Fin 32) (k : Fin 200) (hb : 32 * t.val + r.val < 4096) :
    (iblk m c 2 t : Vec Ideal S32x200 .f32) (ix2 r k) = wArr m c (ix2 ⟨32 * t.val + r.val, hb⟩ k) := by
  obtain ⟨-, -, -, -, -, e0, e1, -⟩ := blockIndex t
  unfold iblk
  rw [View.read_apply]
  show V m c main_v13 _ = V m c main_v13 _
  congr 1
  funext a
  apply Fin.ext
  match a with
  | ⟨0, _⟩ => show win0_2.index t (0 : Fin 2) * 32 + 1 * r.val = 32 * t.val + r.val; omega
  | ⟨1, _⟩ => show win0_2.index t (1 : Fin 2) * 200 + 1 * k.val = k.val; omega

/-- Row r of the label block at point t is sample 32·t + r of the gathered labels. -/
theorem labBlock (c : Dev nD) (t : Fin cfg0.N) (r : Fin 32) (k : Fin 200) (hb : 32 * t.val + r.val < 4096) :
    (iblk m c 3 t : Vec Ideal S32x200 .i32) (ix2 r k) = labArr m c (ix2 ⟨32 * t.val + r.val, hb⟩ k) := by
  obtain ⟨-, -, -, -, -, -, -, e0, e1, -⟩ := blockIndex t
  unfold iblk
  rw [View.read_apply]
  show V m c main_v20 _ = V m c main_v20 _
  congr 1
  funext a
  apply Fin.ext
  match a with
  | ⟨0, _⟩ => show win0_3.index t (0 : Fin 2) * 32 + 1 * r.val = 32 * t.val + r.val; omega
  | ⟨1, _⟩ => show win0_3.index t (1 : Fin 2) * 200 + 1 * k.val = k.val; omega

/-- The row function of whole arrays read at sample b and class q. -/
theorem result_at (feat : S4096x128.Idx → EReal) (cen : S4096x200x128.Idx → EReal) (w : S4096x200.Idx → EReal)
    (lab : S4096x200.Idx → BitVec 32) (b : Fin 4096) (q : Fin 1000) :
    Cert.GaussBins.result feat cen w lab (ix2 b q)
      = Cert.GaussBins.rowOut (fun d => feat (ix2 b d)) (fun k d => cen (ix3 b k d)) (fun k => w (ix2 b k))
          (fun k => lab (ix2 b k)) q := rfl

/-- The row function depends on its data entry by entry. -/
theorem rowOut_congr {f f' : Fin 128 → EReal} {cen cen' : Fin 200 → Fin 128 → EReal} {w w' : Fin 200 → EReal}
    {lab lab' : Fin 200 → BitVec 32} (hf : ∀ d, f d = f' d) (hc : ∀ k d, cen k d = cen' k d) (hw : ∀ k, w k = w' k)
    (hl : ∀ k, lab k = lab' k) (q : Fin 1000) :
    Cert.GaussBins.rowOut f cen w lab q = Cert.GaussBins.rowOut f' cen' w' lab' q := by
  rw [show f = f' from funext hf, show cen = cen' from funext fun k => funext (hc k), show w = w' from funext hw,
    show lab = lab' from funext hl]

/-- What a write-back takes from the stored block: element (r, q) of it. -/
theorem stored_at (X : Vec Ideal S32x1000 .f32) (t : Fin cfg0.N) (y : ((cfg0.win 4).xblock (grid0.coords t)).Idx) :
    (cfg0.win 4).cut (grid0.coords t) X y
      = X (ix2 (⟨(y 0).val, (y 0).isLt⟩ : Fin 32) (⟨(y 1).val, (y 1).isLt⟩ : Fin 1000)) := by
  show X _ = X _
  congr 1
  funext a
  match a with
  | ⟨0, _⟩ => rfl
  | ⟨1, _⟩ => rfl

/-- The output block of point t read off any [4096, 1000] array: its element (r, q) is the array's (32·t + r, q). -/
theorem outBlock_at (G : S4096x1000.Idx → EReal) (t : Fin cfg0.N) (y : ((cfg0.win 4).xblock (grid0.coords t)).Idx)
    (hb : 32 * t.val + (y 0).val < 4096) :
    ((cfg0.win 4).blk t).view.read (Elt Ideal) G y
      = G (ix2 (⟨32 * t.val + (y 0).val, hb⟩ : Fin 4096) (⟨(y 1).val, (y 1).isLt⟩ : Fin 1000)) := by
  obtain ⟨-, -, -, -, -, -, -, -, -, e0, e1⟩ := blockIndex t
  rw [View.read_apply]
  show G _ = G _
  congr 1
  funext a
  apply Fin.ext
  match a with
  | ⟨0, _⟩ => show win0_4.index t (0 : Fin 2) * 32 + 1 * (y 0).val = 32 * t.val + (y 0).val; omega
  | ⟨1, _⟩ => show win0_4.index t (1 : Fin 2) * 1000 + 1 * (y 1).val = (y 1).val; omega

/-- What point t writes back is block t of the row function of the four arrays: element (r, q) of the stored block is
    the row function of row r of the four input blocks, and those rows are sample 32·t + r of the arrays. -/
theorem writeBack_eq (c : Dev nD) (t : Fin cfg0.N) :
    (dats m 0 c).flushed 4 t = ((cfg0.win 4).blk t).view.read (Elt Ideal)
      (Cert.GaussBins.result (featArr m c) (cenArr m c) (wArr m c) (labArr m c)) := by
  rw [Value.flushed4]
  funext y
  have hr : (y 0).val < 32 := (y 0).isLt
  have ht : t.val < 128 := lt_of_lt_of_eq t.isLt N_0
  have hb : 32 * t.val + (y 0).val < 4096 := by omega
  refine (stored_at (out0_4 (F := Ideal) (iblk m c 0 t) (iblk m c 1 t) (iblk m c 2 t) (iblk m c 3 t)) t y).trans ?_
  refine Eq.trans ?_
    (outBlock_at (Cert.GaussBins.result (featArr m c) (cenArr m c) (wArr m c) (labArr m c)) t y hb).symm
  rw [Cert.KernelIdeal.RowValue.out_row, result_at]
  exact rowOut_congr (fun d => featBlock m c t _ d hb) (fun k d => cenBlock m c t _ k d hb)
    (fun k => wBlock m c t _ k hb) (fun k => labBlock m c t _ k hb) _

/-- An index of the result is in point t's block iff each coordinate is in the block's range on its axis. -/
theorem mem_outBlock (t : Fin cfg0.N) (i : S4096x1000.Idx) :
    i ∈ ((cfg0.win 4).blk t).view.set ↔ ∀ a : Fin 2, win0_4.index t a * S32x1000.size a ≤ (i a).val
      ∧ (i a).val < win0_4.index t a * S32x1000.size a + S32x1000.size a := by
  show i ∈ ((View.whole main_v21).slice (win0_4.rect t)).set ↔ _
  rw [View.set_slice_whole, Rect.mem_set_unit]
  exact Iff.rfl

/-- The output blocks tile the result: sample b lies in the block of point b / 32. -/
theorem outBlocks_cover (i : S4096x1000.Idx) :
    ∃ t : Fin cfg0.N, (cfg0.win 4).flush t = true ∧ i ∈ ((cfg0.win 4).blk t).view.set := by
  have hi0 : (i 0).val < 4096 := (i 0).isLt
  have hi1 : (i 1).val < 1000 := (i 1).isLt
  have hN : cfg0.N = 128 := N_0
  have ht : (i 0).val / 32 < cfg0.N := by rw [hN]; omega
  obtain ⟨-, -, -, -, -, -, -, -, -, e0, e1⟩ := blockIndex ⟨(i 0).val / 32, ht⟩
  refine ⟨⟨(i 0).val / 32, ht⟩, flush0_4 _, ?_⟩
  rw [mem_outBlock]
  intro a
  match a with
  | ⟨0, _⟩ =>
    show win0_4.index ⟨(i 0).val / 32, ht⟩ (0 : Fin 2) * 32 ≤ (i 0).val
      ∧ (i 0).val < win0_4.index ⟨(i 0).val / 32, ht⟩ (0 : Fin 2) * 32 + 32
    rw [e0]; show (i 0).val / 32 * 32 ≤ (i 0).val ∧ (i 0).val < (i 0).val / 32 * 32 + 32; omega
  | ⟨1, _⟩ =>
    show win0_4.index ⟨(i 0).val / 32, ht⟩ (1 : Fin 2) * 1000 ≤ (i 1).val
      ∧ (i 1).val < win0_4.index ⟨(i 0).val / 32, ht⟩ (1 : Fin 2) * 1000 + 1000
    rw [e1]; omega

/-- After the run the output array is the row function of the four arrays the region found, row by row. -/
theorem final (c : Dev nD) :
    (dats m 0 c).arrAt 4 cfg0.N = Cert.GaussBins.result (featArr m c) (cenArr m c) (wArr m c) (labArr m c) :=
  (dats m 0 c).arrAt_eq_of_cover 4 (Cert.GaussBins.result (featArr m c) (cenArr m c) (wArr m c) (labArr m c))
    (fun t _ => writeBack_eq m c t) outBlocks_cover

end Cert.KernelIdeal.ArrValue

end
-- ==== Proof.KernelGathers.lean ====
/-
  What the kernel's region finds in its three gathered input arrays.

  Before the region the program computes, three times over and each time the same way, the table of neighbour indices
  `nbrIdx`: each index word with the table's extent 100000 added when it is negative, laid out [4096, 200, 1]. It then
  gathers with it the rows of the centres, the entries of the log-weights and the entries of the labels. Those three
  gathered arrays are what the region's input windows 1, 2 and 3 stage.
-/
import proofs.«419138_j84731114816366_1_alg».proof.Proof.Gen.KernelIdeal.Frame
import Idealize.ShloMosaic.Lib.StableHlo.Run

noncomputable section

namespace Cert.KernelIdeal.Gathers

open Cert.KernelIdeal Cert.KernelIdeal.Gen Idealize.ShloMosaic Idealize.ShloMosaic.TcCoe Idealize.SL.Sem
open Idealize.ShloMosaic.StableHlo

variable {F : FTy → Type} [FloatOps F]

/-- The neighbour-index table the gathers read: a negative index has the extent 100000 added; one unit axis appended. -/
def nbrIdx (x4 : IVec S4096x200 32) : IVec S4096x200x1 32 :=
  broadcastInDim S4096x200x1 ![0, 1] bcast_S4096x200_S4096x200x1_0_1
    (select (cmpi .slt x4 (broadcastInDim S4096x200 ![] bcast_S_S4096x200 (constantI S_ 32 0#32)))
      (addi x4 (broadcastInDim S4096x200 ![] bcast_S_S4096x200 (constantI S_ 32 100000#32))) x4)

variable (m : (ℓ : Loc nD τ sig) → Buf (Elt F) ℓ)

/-- Input window 1's array: the centres' rows gathered at the neighbour indices. -/
theorem V_centres (c : Dev nD) :
    (V m c main_v6 : S4096x200x128.Idx → F .f32)
      = Host.gather gather_S100000x128_S4096x200x1_S4096x200x128_2_0_n_n_0_2_1128 (m ((c : Thread nD τ).loc main_arg1))
          (nbrIdx (m ((c : Thread nD τ).loc main_arg4))) := by
  dsimp only [V, hostOps0]; after_results_simp <;> rfl

/-- Input window 2's array: the log-weights gathered at the neighbour indices. -/
theorem V_weights (c : Dev nD) :
    (V m c main_v13 : S4096x200.Idx → F .f32)
      = Host.gather gather_S100000_S4096x200x1_S4096x200_n_0_n_n_0_2_1 (m ((c : Thread nD τ).loc main_arg2))
          (nbrIdx (m ((c : Thread nD τ).loc main_arg4))) := by
  dsimp only [V, hostOps0]; after_results_simp <;> rfl

/-- Input window 3's array: the labels gathered at the neighbour indices. -/
theorem V_labels (c : Dev nD) :
    (V m c main_v20 : S4096x200.Idx → BitVec 32)
      = Host.gather gather_S100000_S4096x200x1_S4096x200_n_0_n_n_0_2_1 (m ((c : Thread nD τ).loc main_arg3))
          (nbrIdx (m ((c : Thread nD τ).loc main_arg4))) := by
  dsimp only [V, hostOps0]; after_results_simp <;> rfl

end Cert.KernelIdeal.Gathers

end
-- ==== Proof.KernelRun.lean ====
/-
  The kernel program's run, with its result named.

  The run ends with the result array at the row function (proof/Proof/RowSpec.lean) of the features and of the centres,
  log-weights and labels gathered at the neighbour indices, and with the five argument arrays unchanged: the blocks
  written back tile the result (KernelArr), and the three gathered arrays are what the host operations before the
  region computed (KernelGathers).
-/
import proofs.«419138_j84731114816366_1_alg».proof.Proof.KernelArr
import proofs.«419138_j84731114816366_1_alg».proof.Proof.KernelGathers

noncomputable section

namespace Cert.KernelIdeal.KernelRun

open Cert.KernelIdeal Cert.KernelIdeal.Gen Cert.KernelIdeal.Value Idealize.ShloMosaic Idealize.ShloMosaic.TcCoe
open Idealize.SL.Sem Cert.KernelIdeal.Gathers

variable (m : (ℓ : Loc nD τ sig) → Buf (Elt Ideal) ℓ) (ρ : Dev nD → PrngReg)

/-- The result array as a function of the argument arrays. -/
def resultOf (c : Dev nD) : S4096x1000.Idx → EReal :=
  Cert.GaussBins.result (m ((c : Thread nD τ).loc main_arg0))
    (Host.gather gather_S100000x128_S4096x200x1_S4096x200x128_2_0_n_n_0_2_1128 (m ((c : Thread nD τ).loc main_arg1))
      (nbrIdx (m ((c : Thread nD τ).loc main_arg4))))
    (Host.gather gather_S100000_S4096x200x1_S4096x200_n_0_n_n_0_2_1 (m ((c : Thread nD τ).loc main_arg2))
      (nbrIdx (m ((c : Thread nD τ).loc main_arg4))))
    (Host.gather gather_S100000_S4096x200x1_S4096x200_n_0_n_n_0_2_1 (m ((c : Thread nD τ).loc main_arg3))
      (nbrIdx (m ((c : Thread nD τ).loc main_arg4))))

/-- The array the run leaves is `resultOf`: the four arrays the region found are the features as launched and the three
    gathers. -/
theorem final_eq (c : Dev nD) : (dats m 0 c).arrAt 4 cfg0.N = resultOf m c := by
  rw [Cert.KernelIdeal.ArrValue.final m c]
  unfold resultOf Cert.KernelIdeal.ArrValue.featArr Cert.KernelIdeal.ArrValue.cenArr Cert.KernelIdeal.ArrValue.wArr
    Cert.KernelIdeal.ArrValue.labArr
  rw [V_main_arg0 m c, V_centres m c, V_weights m c, V_labels m c]

/-- Every weakly fair execution of the kernel program ends with the result at `resultOf` and the arguments unchanged. -/
theorem run : θ_run defs (onTc (τ := τ) (main (F := Ideal))) ⟨m, fun _ => 0, ρ⟩ fun r => ∀ c : Dev nD,
      r.2.mem ((c : Thread nD τ).loc main_v21) = resultOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final_eq m c), (h c).2⟩) (run_blocks m ρ)

end Cert.KernelIdeal.KernelRun

end
-- ==== Proof.LibScatterPairs.lean ====
/-
  A scatter-add of scalars addressed by PAIRS of index words, read at one element, at the ideal instance (floats are
  extended reals).

  `x.at[rows, cols].add(upd)` with `rows`, `cols` and `upd` of one shape [M, K] lowers to a scatter whose index table
  is [M, K, 2] (the two words of update (e, k) side by side on the last axis), whose two operand axes are both inserted
  and both named by the index, and whose updates have no window axis. Update (e, k) lands on element (r, c) exactly
  when its first word, read signed, is r and its second is c; an update whose pair leaves the operand is dropped. So
  the result at (r, c) is the operand there plus the sum of those updates. Stated over ANY dimension-number record of
  the right type whose fields are given by hypotheses, so that one statement serves every size.

  The road: on operand axis a the landing coordinate of update (e, k) is its window start, which is word a of the
  pair (e, k) read signed, plus its window coordinate, which is zero because both operand axes are inserted. So the
  update lands on (r, c) exactly when the pair is (r, c), and a pair outside the operand lands nowhere. The sum over
  the update indices that land on (r, c) is then re-indexed by the two coordinates (e, k).
-/
import Idealize.ShloMosaic.PureOps.Ideal
import Idealize.ShloMosaic.PureOps.Contract
import Idealize.ShloMosaic.Lib.ValueIdx

noncomputable section

open scoped BigOperators

namespace Cert.LibScatterPairs

open Idealize.ShloMosaic Idealize.ShloMosaic.ValueIdx

/-- An entry of a two-element list is its first element at position 0 and its second otherwise. -/
theorem getElem_of_eq_pair {α : Type} {l : List α} {a b : α} (hl : l = [a, b]) (n : Nat) (h : n < l.length) :
    l[n] = if n = 0 then a else b := by
  subst hl
  match n, h with
  | 0, _ => rfl
  | 1, _ => rfl
  | n + 2, h => exact absurd h (by simp)

section Pairs

variable {R C M K w : Nat} (d : ScatterDims ⟨2, ![R, C]⟩ ⟨3, ![M, K, 2]⟩ ⟨2, ![M, K]⟩)

/-- With no window axis, both axes of the updates are scatter axes. -/
theorem uScatter_pairs (huw : d.updateWindowDims = []) : d.uScatter = [(0 : Fin 2), 1] := by
  change (⟨2, ![M, K]⟩ : Shape).kept d.updateWindowDims = [0, 1]
  rw [huw]; rfl

/-- The index table's axes other than the index vector's (the last) are its first two. -/
theorem siKept_pairs (hiv : d.indexVectorDim = 2) : d.siKept = [(0 : Fin 3), 1] := by
  change (List.finRange 3).filter (fun b : Fin 3 => b.val ≠ d.indexVectorDim) = [0, 1]
  rw [hiv]; rfl

/-- Update (e, k) reads component `a` of its start index at (e, k, a) of the index table. -/
theorem siIdx_pairs (huw : d.updateWindowDims = []) (hiv : d.indexVectorDim = 2) (e : Fin M) (k : Fin K)
    (a : Fin d.scatterDimsToOperandDims.length) (a' : Fin 2) (ha : a.val = a'.val) :
    d.siIdx (ix2 e k) a = ix3 e k a' := by
  have hus := uScatter_pairs d huw
  have hsk := siKept_pairs d hiv
  funext b
  match b with
  | ⟨0, _⟩ =>
    -- the first axis of the index table: the update's first coordinate
    unfold ScatterDims.siIdx
    rw [dif_neg (by rw [hiv]; simp)]
    unfold ScatterDims.siCoord
    apply Fin.ext
    simp only [Fin.val_cast]
    have row : ∀ X : Fin 2, X = 0 → ((ix2 e k : (⟨2, ![M, K]⟩ : Shape).Idx) X).val = e.val := by
      rintro _ rfl; rfl
    refine row _ ((getElem_of_eq_pair hus _ _).trans ?_)
    rw [if_pos]
    rw [hsk]; rfl
  | ⟨1, _⟩ =>
    -- the second axis of the index table: the update's second coordinate
    unfold ScatterDims.siIdx
    rw [dif_neg (by rw [hiv]; simp)]
    unfold ScatterDims.siCoord
    apply Fin.ext
    simp only [Fin.val_cast]
    have col : ∀ X : Fin 2, X = 1 → ((ix2 e k : (⟨2, ![M, K]⟩ : Shape).Idx) X).val = k.val := by
      rintro _ rfl; rfl
    refine col _ ((getElem_of_eq_pair hus _ _).trans ?_)
    rw [if_neg]
    rw [hsk]
    change ¬ List.idxOf (1 : Fin 3) [0, 1] = 0
    decide
  | ⟨2, _⟩ =>
    -- the index vector's axis: the component asked for
    unfold ScatterDims.siIdx
    rw [dif_pos (by rw [hiv])]
    apply Fin.ext
    exact ha

/-- On operand axis `a` the window of update (e, k) starts at word `a` of its pair, read signed. -/
theorem start_pairs (huw : d.updateWindowDims = []) (hsd : d.scatterDimsToOperandDims = [0, 1]) (hiv : d.indexVectorDim = 2)
    (idx : IVec ⟨3, ![M, K, 2]⟩ w) (e : Fin M) (k : Fin K) (a : Fin 2) :
    d.start (ix2 e k) idx a = (idx (ix3 e k a)).toInt := by
  have hm : a ∈ d.scatterDimsToOperandDims := by
    rw [hsd]
    have h2 : ∀ b : Fin 2, b ∈ [(0 : Fin 2), 1] := by decide
    exact h2 a
  unfold ScatterDims.start
  rw [dif_pos hm]
  congr 2
  refine siIdx_pairs d huw hiv e k _ a ?_
  -- the position of operand axis `a` in the map [0, 1] is `a`
  show List.idxOf a d.scatterDimsToOperandDims = a.val
  have h2 : ∀ b : Fin 2, List.idxOf b [(0 : Fin 2), 1] = b.val := by decide
  rw [hsd]
  exact h2 a

/-- Both operand axes are inserted: an update has no coordinate inside the window. -/
theorem window_pairs (hiw : d.insertedWindowDims = [0, 1]) (j : (⟨2, ![M, K]⟩ : Shape).Idx) (a : Fin 2) :
    d.window j a = 0 := by
  unfold ScatterDims.window
  rw [dif_neg]
  rw [ScatterDims.sKept, hiw]
  have h2 : ∀ b : Fin 2, b ∉ (List.finRange 2).filter (fun b' => b' ∉ [(0 : Fin 2), 1]) := by decide
  exact h2 a

end Pairs

section PairsMain

variable {R C M K w : Nat} (d : ScatterDims ⟨2, ![R, C]⟩ ⟨3, ![M, K, 2]⟩ ⟨2, ![M, K]⟩)

/-- Update (e, k) lands on element (r, c) exactly when its two index words, read signed, are r and c. -/
theorem resultIdx_pairs (huw : d.updateWindowDims = []) (hiw : d.insertedWindowDims = [0, 1])
    (hsd : d.scatterDimsToOperandDims = [0, 1]) (hiv : d.indexVectorDim = 2)
    (idx : IVec ⟨3, ![M, K, 2]⟩ w) (e : Fin M) (k : Fin K) (r : Fin R) (c : Fin C) :
    d.resultIdx? (ix2 e k) idx = some (ix2 r c)
      ↔ ((idx (ix3 e k 0)).toInt = (r.val : ℤ) ∧ (idx (ix3 e k 1)).toInt = (c.val : ℤ)) := by
  have hs0 := start_pairs d huw hsd hiv idx e k 0
  have hs1 := start_pairs d huw hsd hiv idx e k 1
  have hw0 := window_pairs d hiw (ix2 e k) 0
  have hw1 := window_pairs d hiw (ix2 e k) 1
  have hr := r.isLt
  have hc := c.isLt
  constructor
  · intro h
    unfold ScatterDims.resultIdx? at h
    split at h
    · rename_i hall
      have hf := Option.some.inj h
      have h0 := congrArg Fin.val (congrFun hf 0)
      have h1 := congrArg Fin.val (congrFun hf 1)
      have hb0 := hall 0
      have hb1 := hall 1
      rw [hs0, hw0] at hb0
      rw [hs1, hw1] at hb1
      change (d.start (ix2 e k) idx 0 + (d.window (ix2 e k) 0 : ℤ)).toNat = r.val at h0
      change (d.start (ix2 e k) idx 1 + (d.window (ix2 e k) 1 : ℤ)).toNat = c.val at h1
      rw [hs0, hw0] at h0
      rw [hs1, hw1] at h1
      exact ⟨by omega, by omega⟩
    · cases h
  · rintro ⟨h0, h1⟩
    have hall : ∀ a, 0 ≤ d.start (ix2 e k) idx a + d.window (ix2 e k) a ∧
        d.start (ix2 e k) idx a + d.window (ix2 e k) a < (⟨2, ![R, C]⟩ : Shape).size a := by
      refine Fin.forall_fin_two.mpr ⟨?_, ?_⟩
      · rw [hs0, hw0]
        change 0 ≤ (idx (ix3 e k 0)).toInt + ((0 : ℕ) : ℤ) ∧ (idx (ix3 e k 0)).toInt + ((0 : ℕ) : ℤ) < (R : ℤ)
        omega
      · rw [hs1, hw1]
        change 0 ≤ (idx (ix3 e k 1)).toInt + ((0 : ℕ) : ℤ) ∧ (idx (ix3 e k 1)).toInt + ((0 : ℕ) : ℤ) < (C : ℤ)
        omega
    unfold ScatterDims.resultIdx?
    rw [dif_pos hall]
    congr 1
    funext a
    apply Fin.ext
    revert a
    refine Fin.forall_fin_two.mpr ⟨?_, ?_⟩
    · change (d.start (ix2 e k) idx 0 + (d.window (ix2 e k) 0 : ℤ)).toNat = r.val
      rw [hs0, hw0]
      omega
    · change (d.start (ix2 e k) idx 1 + (d.window (ix2 e k) 1 : ℤ)).toNat = c.val
      rw [hs1, hw1]
      omega

end PairsMain

/-- A pair-addressed scatter-add read at (r, c): the operand there plus the updates whose two index words, read signed,
    are r and c. -/
theorem scatterAdd_pairs {R C M K w : Nat} (d : ScatterDims ⟨2, ![R, C]⟩ ⟨3, ![M, K, 2]⟩ ⟨2, ![M, K]⟩)
    (huw : d.updateWindowDims = []) (hiw : d.insertedWindowDims = [0, 1])
    (hsd : d.scatterDimsToOperandDims = [0, 1]) (hiv : d.indexVectorDim = 2)
    (x : (⟨2, ![R, C]⟩ : Shape).Idx → EReal) (idx : IVec ⟨3, ![M, K, 2]⟩ w) (upd : (⟨2, ![M, K]⟩ : Shape).Idx → EReal)
    (r : Fin R) (c : Fin C) :
    Host.scatterAdd (F := Ideal) (φ := .f32) d x idx upd (ix2 r c)
      = x (ix2 r c) + ∑ e : Fin M, ∑ k : Fin K,
          if (idx (ix3 e k 0)).toInt = (r.val : ℤ) ∧ (idx (ix3 e k 1)).toInt = (c.val : ℤ) then upd (ix2 e k) else 0 := by
  change x (ix2 r c) + ∑ j ∈ Finset.univ.filter (fun j => d.resultIdx? j idx = some (ix2 r c)), upd j = _
  congr 1
  -- a sum over the update indices that land on (r, c) is a double sum over the coordinates (e, k)
  rw [Finset.sum_filter, sum_idx2]
  refine Finset.sum_congr rfl fun e _ => Finset.sum_congr rfl fun k _ => ?_
  simp only [resultIdx_pairs d huw hiw hsd hiv idx e k r c]

end Cert.LibScatterPairs

end
-- ==== Proof.RefValue.lean ====
/-
  The reference program's result, read index by index.

  The reference gathers each sample's 200 neighbour centres, forms the squared distances and the Gaussian weights
  (the exponential of the log-weights taken BEFORE the gather, which is the same as after it: a gather only selects),
  gathers the labels, wraps negative labels by the number of classes, and scatter-adds the weights into a zero
  [4096, 1000] array at the pairs (sample, label). With every label nonnegative the wrap does nothing, and an update
  lands on (b, c) exactly when it belongs to sample b and its label is c; so the scattered array at (b, c) is the
  class mass of sample b. The zero-fill, the normalisation and the logarithm follow element by element.
-/
import proofs.«419138_j84731114816366_1_alg».proof.Proof.Gen.ReferenceIdeal.Read
import proofs.«419138_j84731114816366_1_alg».proof.Proof.RowSpec
import proofs.«419138_j84731114816366_1_alg».proof.Proof.SumLaws
import proofs.«419138_j84731114816366_1_alg».proof.Proof.LibScatterPairs
import Idealize.ShloMosaic.PureOps.Ideal.Laws
import Idealize.ShloMosaic.Lib.ValueIdx
import Idealize.ShloMosaic.Lib.Pipeline.Value

set_option maxRecDepth 16384

noncomputable section

open scoped BigOperators

namespace Cert.ReferenceIdeal.RefValue

open Cert.ReferenceIdeal Cert.ReferenceIdeal.Gen Cert.ReferenceIdeal.Read Idealize.ShloMosaic Idealize.ShloMosaic.ValueIdx

/-- The exponential of the log-weights commutes with the gather: a gather only selects. -/
theorem expw_apply (x2 : (⟨S100000, .f32⟩ : BufTy).Contents (Elt Ideal)) (x4 : (⟨S4096x200, .i32⟩ : BufTy).Contents (Elt Ideal))
    (i : S4096x200.Idx) :
    val_main_v23 (F := Ideal) x2 x4 i
      = Ideal.exp (Host.gather gather_S100000_S4096x200x1_S4096x200_n_0_n_n_0_2_1 x2 (val_main_v22 (F := Ideal) x4) i) := rfl

/-- The squared distance: the reference's sum over the 128 feature coordinates, from a zero initial word. -/
theorem sqdist_apply (x0 : (⟨S4096x128, .f32⟩ : BufTy).Contents (Elt Ideal)) (x1 : (⟨S100000x128, .f32⟩ : BufTy).Contents (Elt Ideal))
    (x4 : (⟨S4096x200, .i32⟩ : BufTy).Contents (Elt Ideal)) (b : Fin 4096) (k : Fin 200) :
    val_main_v11 (F := Ideal) x0 x1 x4 (ix2 b k)
      = Cert.GaussBins.sqDist (fun d => x0 (ix2 b d)) (fun d => val_main_v6 (F := Ideal) x1 x4 (ix3 b k d)) := by
  rw [val_main_v11_apply, val_main_cst_apply, Ideal.ofBits_def, Ideal.ofBits_zero_f32, zero_add]
  unfold Cert.GaussBins.sqDist
  refine Finset.sum_congr rfl fun d _ => ?_
  have e1 : idx_main_v11 (ix2 b k) d = ix3 b k d :=
    funext fun a => Fin.ext (by match a with | ⟨0, _⟩ => rfl | ⟨1, _⟩ => rfl | ⟨2, _⟩ => rfl)
  have e2 : idx_main_v7 (idx_main_v8 (ix3 b k d)) = ix2 b d :=
    funext fun a => Fin.ext (by match a with | ⟨0, _⟩ => rfl | ⟨1, _⟩ => rfl)
  rw [e1, val_main_v10_apply, val_main_v9_apply, val_main_v8_apply, val_main_v7_apply, e2]
  rfl

/-- The Gaussian weight of neighbour (b, k). -/
theorem weight_apply (x0 : (⟨S4096x128, .f32⟩ : BufTy).Contents (Elt Ideal)) (x1 : (⟨S100000x128, .f32⟩ : BufTy).Contents (Elt Ideal))
    (x2 : (⟨S100000, .f32⟩ : BufTy).Contents (Elt Ideal)) (x4 : (⟨S4096x200, .i32⟩ : BufTy).Contents (Elt Ideal))
    (b : Fin 4096) (k : Fin 200) :
    val_main_v24 (F := Ideal) x0 x1 x2 x4 (ix2 b k)
      = Cert.GaussBins.nbrWeight (fun d => x0 (ix2 b d)) (fun d => val_main_v6 (F := Ideal) x1 x4 (ix3 b k d))
          (Host.gather gather_S100000_S4096x200x1_S4096x200_n_0_n_n_0_2_1 x2 (val_main_v22 (F := Ideal) x4) (ix2 b k)) := by
  rw [val_main_v24_apply, val_main_v15_apply, val_main_v14_apply, val_main_v12_apply, val_main_v13_apply,
    val_main_cst_1_apply, sqdist_apply, expw_apply]
  rfl

/-- A row number below 4096, as a 32-bit word, reads back signed as itself. -/
theorem toInt_row (b : Fin 4096) : (BitVec.ofNat 32 b.val).toInt = (b.val : ℤ) := by
  have hb := b.isLt
  have hn : (BitVec.ofNat 32 b.val).toNat = b.val := by
    rw [BitVec.toNat_ofNat, Nat.mod_eq_of_lt (by omega)]
  rw [BitVec.toInt_eq_toNat_of_lt (by rw [hn]; omega), hn]

/-- The first word of the pair of update (b, k) is the row number b: the row numbers are an iota along the rows,
    nonnegative, so "add 4096 if negative" leaves them alone. -/
theorem pair_row (x3 : (⟨S100000, .i32⟩ : BufTy).Contents (Elt Ideal)) (x4 : (⟨S4096x200, .i32⟩ : BufTy).Contents (Elt Ideal))
    (b : Fin 4096) (k : Fin 200) :
    val_main_v48 (F := Ideal) x3 x4 (ix3 b k 0) = BitVec.ofNat 32 b.val := by
  unfold val_main_v48
  refine (concatenate_pair_apply_left (t := S4096x200x2) (s₁ := S4096x200x1) (s₂ := S4096x200x1) 2 _ _
    concatenates_S4096x200x1_S4096x200x1_S4096x200x2_d2 (ix3 b k 0) rfl (ix3 b k 0)
    (fun a => by match a with | ⟨0, _⟩ => rfl | ⟨1, _⟩ => rfl | ⟨2, _⟩ => rfl)).trans ?_
  rw [val_main_v46_apply, val_main_v45_apply, val_main_v39_apply, val_main_v36_apply, val_main_v38_apply,
    val_main_v35_apply, val_main_c_7_apply, val_main_v33_apply, val_main_v32_apply]
  exact Cert.GaussBins.wrap_of_nonneg (BitVec.ofNat 32 b.val) _ (by rw [toInt_row]; omega)

/-- The second word of the pair of update (b, k) is the label of neighbour (b, k): a gathered label is one of the
    given labels, nonnegative, so "add 1000 if negative" leaves it alone. -/
theorem pair_label (x3 : (⟨S100000, .i32⟩ : BufTy).Contents (Elt Ideal)) (x4 : (⟨S4096x200, .i32⟩ : BufTy).Contents (Elt Ideal))
    (hlab : ∀ i, 0 ≤ (x3 i).toInt) (b : Fin 4096) (k : Fin 200) :
    val_main_v48 (F := Ideal) x3 x4 (ix3 b k 1) = val_main_v31 (F := Ideal) x3 x4 (ix2 b k) := by
  unfold val_main_v48
  refine (concatenate_pair_apply_right (t := S4096x200x2) (s₁ := S4096x200x1) (s₂ := S4096x200x1) 2 _ _
    concatenates_S4096x200x1_S4096x200x1_S4096x200x2_d2 (ix3 b k 1) rfl rfl (ix3 b k 0)
    (fun a ha => by match a, ha with | ⟨0, _⟩, _ => rfl | ⟨1, _⟩, _ => rfl | ⟨2, _⟩, ha => exact absurd rfl ha) rfl).trans ?_
  have e : idx_main_v47 (ix3 b k (0 : Fin 1)) = ix2 b k :=
    funext fun a => Fin.ext (by match a with | ⟨0, _⟩ => rfl | ⟨1, _⟩ => rfl)
  rw [val_main_v47_apply, e, val_main_v44_apply, val_main_v41_apply, val_main_v43_apply, val_main_v40_apply,
    val_main_c_9_apply]
  have h : 0 ≤ (val_main_v31 (F := Ideal) x3 x4 (ix2 b k)).toInt := hlab _
  exact Cert.GaussBins.wrap_of_nonneg _ _ h

/-- The scattered array at (b, c) is the class mass of sample b: an update lands on (b, c) exactly when it belongs to
    sample b and its label is c, and the array scattered into is zero. -/
theorem scattered_apply (x0 : (⟨S4096x128, .f32⟩ : BufTy).Contents (Elt Ideal)) (x1 : (⟨S100000x128, .f32⟩ : BufTy).Contents (Elt Ideal))
    (x2 : (⟨S100000, .f32⟩ : BufTy).Contents (Elt Ideal)) (x3 : (⟨S100000, .i32⟩ : BufTy).Contents (Elt Ideal))
    (x4 : (⟨S4096x200, .i32⟩ : BufTy).Contents (Elt Ideal))
    (hlab : ∀ i, 0 ≤ (x3 i).toInt) (b : Fin 4096) (c : Fin 1000) :
    val_main_v49 (F := Ideal) x0 x1 x2 x3 x4 (ix2 b c)
      = Cert.GaussBins.classMass (fun k => val_main_v24 (F := Ideal) x0 x1 x2 x4 (ix2 b k))
          (fun k => val_main_v31 (F := Ideal) x3 x4 (ix2 b k)) c := by
  unfold val_main_v49
  rw [Cert.LibScatterPairs.scatterAdd_pairs scatter_S4096x1000_S4096x200x2_S4096x200_n_01_01_2 rfl rfl rfl rfl]
  rw [val_main_v34_apply, val_main_cst_6_apply, Ideal.ofBits_def, Ideal.ofBits_zero_f32, zero_add]
  unfold Cert.GaussBins.classMass
  -- only the updates of sample b can land in row b
  rw [Finset.sum_eq_single b]
  · refine Finset.sum_congr rfl fun k _ => ?_
    rw [pair_row, pair_label x3 x4 hlab, toInt_row]
    simp only [true_and]
  · intro e _ hne
    refine Finset.sum_eq_zero fun k _ => ?_
    rw [pair_row, toInt_row, if_neg]
    intro h
    exact hne (Fin.ext (by exact_mod_cast h.1))
  · intro h
    exact absurd (Finset.mem_univ b) h

/-- The zero-fill: an exactly-zero mass is replaced by the small constant. -/
theorem filled_apply (x0 : (⟨S4096x128, .f32⟩ : BufTy).Contents (Elt Ideal)) (x1 : (⟨S100000x128, .f32⟩ : BufTy).Contents (Elt Ideal))
    (x2 : (⟨S100000, .f32⟩ : BufTy).Contents (Elt Ideal)) (x3 : (⟨S100000, .i32⟩ : BufTy).Contents (Elt Ideal))
    (x4 : (⟨S4096x200, .i32⟩ : BufTy).Contents (Elt Ideal))
    (i : S4096x1000.Idx) :
    val_main_v52 (F := Ideal) x0 x1 x2 x3 x4 i
      = Cert.GaussBins.filled (val_main_v49 (F := Ideal) x0 x1 x2 x3 x4 i) := by
  rw [val_main_v52_apply, val_main_v51_apply, val_main_v50_apply, val_main_cst_11_apply, val_main_call0_v0_apply,
    val_main_cst_12_apply]
  rfl

/-- With nonnegative labels the reference's result is the row function of the features and of the three gathered
    arrays: the centres, the log-weights (gathered with the same indices as the reference gathers their exponentials)
    and the labels. -/
theorem result_eq (x0 : (⟨S4096x128, .f32⟩ : BufTy).Contents (Elt Ideal)) (x1 : (⟨S100000x128, .f32⟩ : BufTy).Contents (Elt Ideal))
    (x2 : (⟨S100000, .f32⟩ : BufTy).Contents (Elt Ideal)) (x3 : (⟨S100000, .i32⟩ : BufTy).Contents (Elt Ideal))
    (x4 : (⟨S4096x200, .i32⟩ : BufTy).Contents (Elt Ideal)) (hlab : ∀ i, 0 ≤ (x3 i).toInt) :
    val_main_v57 (F := Ideal) x0 x1 x2 x3 x4
      = Cert.GaussBins.result x0 (val_main_v6 (F := Ideal) x1 x4)
          (Host.gather gather_S100000_S4096x200x1_S4096x200_n_0_n_n_0_2_1 x2 (val_main_v22 (F := Ideal) x4))
          (val_main_v31 (F := Ideal) x3 x4) := by
  funext i
  obtain ⟨b, c, rfl⟩ : ∃ (b : Fin 4096) (c : Fin 1000), i = ix2 b c := ⟨i 0, i 1, eq_ix2 i⟩
  -- the filled masses of row b
  have hrow : ∀ c' : Fin 1000, val_main_v52 (F := Ideal) x0 x1 x2 x3 x4 (ix2 b c')
      = Cert.GaussBins.rowMass (fun d => x0 (ix2 b d)) (fun k d => val_main_v6 (F := Ideal) x1 x4 (ix3 b k d))
          (fun k => Host.gather gather_S100000_S4096x200x1_S4096x200_n_0_n_n_0_2_1 x2 (val_main_v22 (F := Ideal) x4) (ix2 b k))
          (fun k => val_main_v31 (F := Ideal) x3 x4 (ix2 b k)) c' := by
    intro c'
    rw [filled_apply, scattered_apply x0 x1 x2 x3 x4 hlab]
    unfold Cert.GaussBins.rowMass
    simp only [weight_apply]
  -- the normalising sum runs over the classes of the same row
  have e : ∀ c' : Fin 1000, idx_main_v53 (idx_main_v54 (idx_main_v55 (ix2 b c))) c' = ix2 b c' := fun c' =>
    funext fun a => Fin.ext (by match a with | ⟨0, _⟩ => rfl | ⟨1, _⟩ => rfl)
  rw [val_main_v57_apply, val_main_v56_apply, val_main_v55_apply, val_main_v54_apply, val_main_v53_apply,
    val_main_cst_13_apply, Ideal.ofBits_def, Ideal.ofBits_zero_f32, zero_add]
  simp only [e, hrow]
  rfl

end Cert.ReferenceIdeal.RefValue

end
-- ==== Proof.PreFacts.lean ====
/-
  What the proof uses of the precondition: every class label, read as a signed 32-bit integer, is nonnegative.

  The precondition is a conjunction of four "all elements satisfy" tests folded with `and`; its last conjunct tests
  each label word against zero with a signed `≥`. If the whole predicate is true then so is that conjunct, and a
  true "all" gives the test at every index.
-/
import proofs.«419138_j84731114816366_1_alg».proof.Pre_finite_inputs
import Idealize.ShloMosaic.Lib.ReduceAll
import Idealize.ShloMosaic.Lib.StableHlo.Predicate

noncomputable section

namespace Cert.PreFacts

open Idealize.ShloMosaic Cert.Pre_finite_inputs

variable {F : FTy → Type} [FloatOps F] [Cert.Pre_finite_inputs.Facts]

/-- Under the precondition every label is nonnegative as a signed word. -/
theorem labels_nonneg (x0 : FVec F S4096x128 .f32) (x1 : FVec F S100000x128 .f32) (x2 : FVec F S100000 .f32)
    (x3 : IVec S100000 32) (x4 : IVec S4096x200 32)
    (h : Cert.Pre_finite_inputs.fn (F := F) x0 x1 x2 x3 x4 = fun _ => 1#1) (i : S100000.Idx) :
    0 ≤ (x3 i).toInt := by
  -- the rank-0 result has exactly one index
  haveI : Subsingleton S_.Idx := ⟨fun a b => funext fun d => d.elim0⟩
  -- the predicate at its one index, its chain of operations laid open
  have h0 := congrFun h (fun a => a.elim0)
  dsimp only [Cert.Pre_finite_inputs.fn, Cert.Pre_finite_inputs.fn_part1] at h0
  -- the final `and` is true, so its second operand, the "all labels ≥ 0" fold, is true
  have h1 := (IntOp.andi_eq_one.1 h0).2
  -- a true "all" gives the signed comparison at the index i
  have h2 := Host.reduce_andi_all _ _ _ _ _ h1 i
  -- that comparison is the test 0 ≤ label on signed readings, the broadcast zero read at i being the zero word
  have h3 : BitVec.ofBool ((0#32 : BitVec 32).sle (x3 i)) = 1#1 := h2
  have h4 : (0#32 : BitVec 32).toInt ≤ (x3 i).toInt :=
    of_decide_eq_true ((StableHlo.Predicate.ofBool_eq_one_iff _).1 h3)
  exact h4

end Cert.PreFacts

end
-- ==== Proof.lean ====
/-
  A Gaussian-kernel nearest-neighbour classifier, kernel against reference, over the extended reals.

  For each of 4096 samples both programs compute, over 1000 classes,
      out[b, c] = log (P[b, c] / ∑ c', P[b, c']),
  where P[b, c] is the sum, over the sample's 200 neighbours whose class label is c, of
  exp (-|features b - centre k|² · ½) · exp (weight k), an exactly-zero class mass replaced by 1e-10
  (proof/Proof/RowSpec.lean states this row function). Both gather the neighbours' centres, log-weights and labels on
  the host with the same clamped, wrapped indices. They differ in how the class sum is taken: the kernel compares each
  label with the class number and sums the masked weights forty neighbours at a time; the reference wraps negative
  labels by the number of classes and scatter-adds the weights at the pairs (sample, label). The two agree when no
  label is negative, which the precondition states (a negative label names no class for the kernel, while the
  reference's wrap sends -1 … -1000 to a class); a label of 1000 or more is dropped by both. No finiteness of the float
  inputs is used: the laws that join the two sides are reorderings of sums and identities valid on all extended reals.

  * the kernel side: KernelRow (one grid point at one element), KernelArr (the blocks tile the result),
    KernelGathers (what the host operations before the region leave), KernelRun;
  * the reference side: RefValue, over LibScatterPairs (a pair-addressed scatter-add read at an element);
  * SumLaws (the forty-at-a-time sum; label comparisons), PreFacts (the labels are nonnegative).
-/
import proofs.«419138_j84731114816366_1_alg».proof.Defs
import proofs.«419138_j84731114816366_1_alg».proof.Proof.Gen.Kernel
import proofs.«419138_j84731114816366_1_alg».proof.Proof.Gen.Kernel.Skeleton
import proofs.«419138_j84731114816366_1_alg».proof.Proof.Gen.Kernel.Launch
import proofs.«419138_j84731114816366_1_alg».proof.Proof.Gen.Kernel.Points
import proofs.«419138_j84731114816366_1_alg».proof.Proof.Gen.Kernel.Frame
import proofs.«419138_j84731114816366_1_alg».proof.Proof.Gen.KernelIdeal
import proofs.«419138_j84731114816366_1_alg».proof.Proof.Gen.KernelIdeal.Skeleton
import proofs.«419138_j84731114816366_1_alg».proof.Proof.Gen.KernelIdeal.Launch
import proofs.«419138_j84731114816366_1_alg».proof.Proof.Gen.KernelIdeal.Points
import proofs.«419138_j84731114816366_1_alg».proof.Proof.Gen.KernelIdeal.Frame
import proofs.«419138_j84731114816366_1_alg».proof.Proof.Gen.ReferenceIdeal
import proofs.«419138_j84731114816366_1_alg».proof.Proof.Gen.Pre_finite_inputs
import proofs.«419138_j84731114816366_1_alg».proof.Proof.Gen.KernelIdeal.Value
import proofs.«419138_j84731114816366_1_alg».proof.Proof.Gen.ReferenceIdeal.Run
import proofs.«419138_j84731114816366_1_alg».proof.Proof.Gen.ReferenceIdeal.Read
import proofs.«419138_j84731114816366_1_alg».proof.Proof.KernelRun
import proofs.«419138_j84731114816366_1_alg».proof.Proof.RefValue
import proofs.«419138_j84731114816366_1_alg».proof.Proof.PreFacts
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference runs and leaves its arguments unchanged: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The kernel's gathers and the reference's are the same operations of the same arguments: the reference's result, as
    the row function of its own gathered arrays, is the kernel's `resultOf`. -/
theorem same_gathers (m : (ℓ : Loc Cert.KernelIdeal.nD Cert.KernelIdeal.τ Cert.KernelIdeal.sig) → Buf (Elt Ideal) ℓ)
    (c : Dev Cert.KernelIdeal.nD) :
    Cert.GaussBins.result (m ((c.tc : Thread Cert.KernelIdeal.nD Cert.KernelIdeal.τ).loc Cert.KernelIdeal.main_arg0))
        (Cert.ReferenceIdeal.Read.val_main_v6 (F := Ideal)
          (m ((c.tc : Thread Cert.KernelIdeal.nD Cert.KernelIdeal.τ).loc Cert.KernelIdeal.main_arg1))
          (m ((c.tc : Thread Cert.KernelIdeal.nD Cert.KernelIdeal.τ).loc Cert.KernelIdeal.main_arg4)))
        (Host.gather Cert.ReferenceIdeal.gather_S100000_S4096x200x1_S4096x200_n_0_n_n_0_2_1
          (m ((c.tc : Thread Cert.KernelIdeal.nD Cert.KernelIdeal.τ).loc Cert.KernelIdeal.main_arg2))
          (Cert.ReferenceIdeal.Read.val_main_v22 (F := Ideal)
            (m ((c.tc : Thread Cert.KernelIdeal.nD Cert.KernelIdeal.τ).loc Cert.KernelIdeal.main_arg4))))
        (Cert.ReferenceIdeal.Read.val_main_v31 (F := Ideal)
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4)))
      = Cert.KernelIdeal.KernelRun.resultOf m c := rfl

/-- From memories that agree on the arguments, with nonnegative labels, the two programs end with equal results. -/
theorem algebraic : Cert.algebraic_KernelIdeal_ReferenceIdeal := by
  intro m ρ m' ρ' hpre hagree
  refine ⟨fun c => Cert.KernelIdeal.KernelRun.resultOf m c, Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v57_eq, (hagree c).1, (hagree c).2.1, (hagree c).2.2.1, (hagree c).2.2.2.1,
    (hagree c).2.2.2.2]
  rw [Cert.ReferenceIdeal.RefValue.result_eq _ _ _ _ _
    (fun i => Cert.PreFacts.labels_nonneg (F := Ideal) _ _ _ _ _ (hpre c) i)]
  exact same_gathers m c

theorem claim : Cert.Claim := ⟨Cert.Kernel.Gen.facts, Cert.KernelIdeal.Gen.facts, Cert.ReferenceIdeal.Gen.facts,
  Cert.Pre_finite_inputs.Gen.facts, frame_k, frame_ki, frame_ri, trivial, algebraic⟩

end Cert.Proof

end
